-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : IVec S1x1600000 32 := (extractStridedSlice S1x1600000 ![0, 0] · slices_S2x1600000_S1x1600000_0_0) main_arg1
  let main_v5 : IVec S1600000 32 := shapeCast S1600000 main_v4 shapeCasts_S1x1600000_S1600000
  let main_c_0 : IVec S_ 32 := constantI S_ 32 0#32
  let main_v6 : IVec S1600000 32 := broadcastInDim S1600000 ![] bcast_S_S1600000 main_c_0
  let main_v7 : IVec S1600000 1 := cmpi .sge main_v5 main_v6
  let main_v8 : IVec S1x1600000 32 := (extractStridedSlice S1x1600000 ![0, 0] · slices_S2x1600000_S1x1600000_0_0) main_arg1
  let main_v9 : IVec S1600000 32 := shapeCast S1600000 main_v8 shapeCasts_S1x1600000_S1600000
  let main_c_1 : IVec S_ 32 := constantI S_ 32 100000#32
  let main_v10 : IVec S1600000 32 := broadcastInDim S1600000 ![] bcast_S_S1600000 main_c_1
  let main_v11 : IVec S1600000 1 := cmpi .slt main_v9 main_v10
  let main_v12 : IVec S1600000 1 := andi main_v7 main_v11
  let main_c_2 : IVec S_ 1 := constantI S_ 1 1#1
  let main_v13 : IVec S_ 1 := (fun x v => Host.reduce IntOp.andi x v reducesTo_S1600000_S_d0 h_S_) main_v12 main_c_2
  let main_v14 : IVec S_ 1 := andi main_v3 main_v13
  main_v14
-- ==== Kernel.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1601536 : Shape := ⟨1, ![1601536]⟩
abbrev S100352x128 : Shape := ⟨2, ![100352, 128]⟩
abbrev S1601536x128 : Shape := ⟨2, ![1601536, 128]⟩
abbrev S4096 : Shape := ⟨1, ![4096]⟩
abbrev S1024x128 : Shape := ⟨2, ![1024, 128]⟩
abbrev S4096x128 : Shape := ⟨2, ![4096, 128]⟩
abbrev S4096x1024 : Shape := ⟨2, ![4096, 1024]⟩
abbrev S4096x1 : Shape := ⟨2, ![4096, 1]⟩

abbrev nBuf : Space → Nat
  | .hbm => 19
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S_, .i32⟩
  | .hbm, ⟨8, _⟩ => ⟨S1601536, .i32⟩
  | .hbm, ⟨9, _⟩ => ⟨S_, .i32⟩
  | .hbm, ⟨10, _⟩ => ⟨S_, .i32⟩
  | .hbm, ⟨11, _⟩ => ⟨S1601536, .i32⟩
  | .hbm, ⟨12, _⟩ => ⟨S_, .i32⟩
  | .hbm, ⟨13, _⟩ => ⟨S_, .f32⟩
  | .hbm, ⟨14, _⟩ => ⟨S100352x128, .f32⟩
  | .hbm, ⟨15, _⟩ => ⟨S100352x128, .bf16⟩
  | .hbm, ⟨16, _⟩ => ⟨S1601536x128, .bf16⟩
  | .hbm, ⟨17, _⟩ => ⟨S100352x128, .f32⟩
  | .hbm, ⟨18, _⟩ => ⟨S100000x128, .f32⟩
  | .local _ .vmem, ⟨0, _⟩ => ⟨S4096, .i32⟩
  | .local _ .vmem, ⟨1, _⟩ => ⟨S4096, .i32⟩
  | .local _ .vmem, ⟨2, _⟩ => ⟨S1024x128, .bf16⟩
  | .local _ .vmem, ⟨3, _⟩ => ⟨S1024x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096, .i32⟩
  | .local _ .vmem, ⟨8, _⟩ => ⟨S4096, .i32⟩
  | .local _ .vmem, ⟨9, _⟩ => ⟨S4096x128, .bf16⟩
  | .local _ .vmem, ⟨10, _⟩ => ⟨S4096x128, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_c_1 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![391, 98], ![false, false]⟩

def k0_cond2 (i : grid0.Coords) : BitVec 1 :=
  let arg1 : BitVec 32 := BitVec.ofNat 32 (i 1).val
  let c97_i32 : BitVec 32 := 97#32
  let v24 : BitVec 1 := Scalar.cmpi .eq arg1 c97_i32
  let v25 : BitVec 32 := Scalar.extui v24
  let c0_i32_9 : BitVec 32 := 0#32
  let v26 : BitVec 1 := Scalar.cmpi .ne v25 c0_i32_9
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![98, 391], ![false, false]⟩

def k1_cond2 (i : grid1.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_9 : BitVec 32 := 0#32
  let v26 : BitVec 1 := Scalar.cmpi .ne v25 c0_i32_9
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  h_S_ : 0 < S_.numel
  pads_S100000x128_S100352x128_03520_000 : S100000x128.Pads (![0, 0] : Fin 2 → Nat) ![352, 0] ![0, 0] S100352x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096_S4096_0 : ∀ a, (![0] : Fin 1 → Nat) a + S4096.size a ≤ S4096.size a
  h_S4096 : 0 < S4096.numel
  shapeCasts_S4096_S4096 : S4096.ShapeCasts S4096
  iota_S4096x1024_d1_w32 : S4096x1024.Iotas .tc 32 [1]
  shapeCasts_S4096_S4096x1 : S4096.ShapeCasts S4096x1
  broadcasts_S4096x1_S4096x1024 : S4096x1.Broadcasts S4096x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S4096x128_S4096x128_0_0 : (Rect.unit (s := S4096x128) ![0, 0] S4096x128.size inb_S4096x128_S4096x128_0_0).PackedRows (EltTy.packing .bf16)
  slices_S100352x128_S100000x128_0_0 : S100352x128.Slices ![0, 0] S100000x128
  dot_S4096x1024_S1024x128_S4096x128_1_0_0_1_n_n_wf : DotDims.WF S4096x1024 S1024x128 S4096x128 [1] [0] [0] [1] [] []
  dot_S4096x1024_S4096x128_S1024x128_0_0_1_1_n_n_wf : DotDims.WF S4096x1024 S4096x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1601536.size a
  hwx0_0 : ∀ i : grid0.Coords, EltTy.bits .i32 = 32 ∨ (Rect.block (s := S1601536) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S100352x128.size a
  hwx0_1 : ∀ i : grid0.Coords, EltTy.bits .bf16 = 32 ∨ (Rect.block (s := S100352x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S1601536x128.size a
  hwx0_2 : ∀ i : grid0.Coords, EltTy.bits .bf16 = 32 ∨ (Rect.block (s := S1601536x128) S4096x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1601536.size a
  hwx1_0 : ∀ i : grid1.Coords, EltTy.bits .i32 = 32 ∨ (Rect.block (s := S1601536) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S1601536x128.size a
  hwx1_1 : ∀ i : grid1.Coords, EltTy.bits .bf16 = 32 ∨ (Rect.block (s := S1601536x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S100352x128.size a
  hwx1_2 : ∀ i : grid1.Coords, EltTy.bits .f32 = 32 ∨ (Rect.block (s := S100352x128) S1024x128.size (cc1_transform_2 i) (hinb1_2 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x1024_S4096x128_S1024x128_0_0_1_1_n_n : DotDims S4096x1024 S4096x128 S1024x128 where
  lhsContracting := [0]
  rhsContracting := [0]
  lhsNonContracting := [1]
  rhsNonContracting := [1]
  lhsBatch := []
  rhsBatch := []
  wf := dot_S4096x1024_S4096x128_S1024x128_0_0_1_1_n_n_wf

abbrev win0_0 : Pipeline.Window sig grid0 :=
  Pipeline.Window.ofSpec (Memref.whole main_v4) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x128, .f32⟩
  | .hbm, ⟨25, _⟩ => ⟨S1600000x128, .i1⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.GatherData.lean ====
import proofs.«411747_j57432302682772_1_alg».proof.Proof.Gen.KernelIdeal.Launch
import proofs.«411747_j57432302682772_1_alg».proof.Proof.Gen.KernelIdeal.Skeleton
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather region: what its buffers hold, point by point

The grid is `391 × 98`, walked row by row: position `n` is the point `(n / 98, n % 98)`. Along a row the edge block is
fixed and the node block advances, so the scratch table accumulates over the 98 points of a row and is written out at
the row's last point. Everything is stated at a parameter `V`: the buffers' contents when the region is entered. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 4096 source words at point `t`. -/
abbrev srcBlk0 (c : Dev nD) (t : Fin cfg0.N) : Vec F S4096 .i32 := iblk0 V c 0 t
/-- The block of 1024 feature rows at point `t`. -/
abbrev tabBlk0 (c : Dev nD) (t : Fin cfg0.N) : Vec F S1024x128 .bf16 := iblk0 V c 1 t

/-- An input window's buffer holds its block at every point, fetched there or not: where it is not fetched the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING TABLE after the point at position `n`: the point's product added to what the point before left, or to
    zero at the first point of a row of the grid (positions ≡ 0 mod 98). -/
def acc0 (c : Dev nD) : (n : ℕ) → n < cfg0.N → Vec F S4096x128 .f32
  | 0, hn => k0_pay2 (grid0.coords ⟨0, hn⟩) (srcBlk0 V c ⟨0, hn⟩) (k0_pay1 (F := F)) (tabBlk0 V c ⟨0, hn⟩)
  | n + 1, hn => k0_pay2 (grid0.coords ⟨n + 1, hn⟩) (srcBlk0 V c ⟨n + 1, hn⟩)
      (if (n + 1) % 98 = 0 then k0_pay1 (F := F) else acc0 c n (Nat.lt_of_succ_lt hn)) (tabBlk0 V c ⟨n + 1, hn⟩)

/-- At the first point of a row the table restarts from zero. -/
theorem acc0_first (c : Dev nD) (t : Fin cfg0.N) (h : t.val % 98 = 0) :
    acc0 V c t.val t.isLt = k0_pay2 (grid0.coords t) (srcBlk0 V c t) (k0_pay1 (F := F)) (tabBlk0 V c t) := by
  obtain ⟨n, hn⟩ := t
  cases n with
  | zero => rfl
  | succ n => show k0_pay2 _ _ (if (n + 1) % 98 = 0 then _ else _) _ = _; rw [if_pos h]

/-- Elsewhere it continues from what the point before left. -/
theorem acc0_next (c : Dev nD) (t : Fin cfg0.N) (h : ¬ t.val % 98 = 0) :
    acc0 V c t.val t.isLt = k0_pay2 (grid0.coords t) (srcBlk0 V c t)
      (acc0 V c (t.val - 1) (Nat.lt_of_le_of_lt (Nat.sub_le _ _) t.isLt)) (tabBlk0 V c t) := by
  obtain ⟨n, hn⟩ := t
  cases n with
  | zero => exact absurd (Nat.zero_mod _) h
  | succ n => show k0_pay2 _ _ (if (n + 1) % 98 = 0 then _ else _) _ = _; rw [if_neg h]; rfl

/-- The scratch table, a whole scoped buffer of the kernel's own. -/
abbrev scM0 : Memref sig .tc .vmem S4096x128 .f32 := Memref.whole cc0_scratch0

/-- The region's invariant before position `n`: before the first point every scoped buffer that is no staging buffer
    at some contents; afterwards the scratch table at what the point before left, the others still at some contents;
    always the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

end

/-- The class invariant with the scratch table split off as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0, owns_whole]
  rfl

section
variable (V : (c : Dev nD) → (b : Ref sig .tc) → Buf (Elt F) ((c : Thread nD τ).loc b))

/-- THE PROOF DATA of the gather region on core `c`: the arrays as the region finds them; after the body each input's
    buffer at its block and the output's at the running table (written out only at a row's last point: elsewhere the
    window is idle and this entry is not read); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.KernelIdeal.Hand

end
-- ==== Proof.GatherCases.lean ====
import proofs.«411747_j57432302682772_1_alg».proof.Proof.Gen.KernelIdeal.Launch

noncomputable section

namespace Cert.KernelIdeal.Hand

open Cert.KernelIdeal Cert.KernelIdeal.Gen
open Idealize.ShloMosaic Idealize.SL.Sem

/-! # The gather kernel's two branches, over the grid

The grid is `391 × 98`, walked row by row, so position `t` is the point `(t / 98, t % 98)`. The body zeroes its running
table where the inner coordinate is 0 and writes it out where the inner coordinate is 97; both tests read the inner
coordinate only, so each is decided over its 98 values. -/

/-- The point is the first of its row of the grid: the running table is zeroed before the sum. -/
abbrev first0 (i : grid0.Coords) : Prop := (Scalar.cmpi .ne (Scalar.extui (Scalar.cmpi .eq (BitVec.ofNat 32 (i 1).val) 0#32)) 0#32) = 1#1
/-- The point is the last of its row of the grid: the running table is written out after the sum. -/
abbrev last0 (i : grid0.Coords) : Prop := k0_cond2 i = 1#1

/-- The inner coordinate of position `t` is `t % 98`; the outer one is `t / 98`. -/
theorem inner0 (t : Fin grid0.N) : ((grid0.coords t) 1).val = t.val % 98 := by
  show t.val / grid0.stride 1 % 98 = _
  rw [show grid0.stride 1 = 1 from by decide, Nat.div_one]
theorem outer0 (t : Fin grid0.N) : ((grid0.coords t) 0).val = t.val / 98 := by
  show t.val / grid0.stride 0 % 391 = _
  rw [show grid0.stride 0 = 98 from by decide]
  have : t.val < 38318 := lt_of_lt_of_eq t.isLt (by decide)
  omega

theorem first0_of_inner : ∀ k : Fin 98, ((Scalar.cmpi .ne (Scalar.extui (Scalar.cmpi .eq (BitVec.ofNat 32 k.val) 0#32)) 0#32) = 1#1) ↔ k.val = 0 := by
  decide
theorem last0_of_inner : ∀ k : Fin 98, ((Scalar.cmpi .ne (Scalar.extui (Scalar.cmpi .eq (BitVec.ofNat 32 k.val) 97#32)) 0#32) = 1#1) ↔ k.val = 97 := by
  decide

/-- The table is zeroed exactly at the positions ≡ 0 (mod 98), -/
theorem hfirst0 (t : Fin cfg0.N) : first0 (grid0.coords t) ↔ t.val % 98 = 0 :=
  (first0_of_inner ((grid0.coords t) 1)).trans (by rw [inner0])
/-- and written out exactly at the positions ≡ 97 (mod 98). -/
theorem hlast0 (t : Fin cfg0.N) : last0 (grid0.coords t) ↔ t.val % 98 = 97 :=
  (last0_of_inner ((grid0.coords t) 1)).trans (by rw [inner0])

/-- The input windows are never idle; the output window is idle exactly where the body does not write it. -/
theorem liveAt0_0 (t : Fin cfg0.N) : cfg0.idle 0 (grid0.coords t) = false := rfl
theorem liveAt0_1 (t : Fin cfg0.N) : cfg0.idle 1 (grid0.coords t) = false := rfl
theorem idleAt0_2 (t : Fin cfg0.N) (h : ¬ last0 (grid0.coords t)) : cfg0.idle 2 (grid0.coords t) = true := by
  show (!(k0_cond2 (grid0.coords t) == 1#1)) = true
  simp only [Bool.not_eq_true', beq_eq_false_iff_ne, ne_eq]; exact h
theorem liveAt0_2 (t : Fin cfg0.N) (h : last0 (grid0.coords t)) : cfg0.idle 2 (grid0.coords t) = false := by
  show (!(k0_cond2 (grid0.coords t) == 1#1)) = false
  simp only [Bool.not_eq_false', beq_iff_eq]; exact h

end Cert.KernelIdeal.Hand

end
-- ==== Proof.GatherSchedule.lean ====
import proofs.«411747_j57432302682772_1_alg».proof.Proof.Gen.KernelIdeal.Launch
import proofs.«411747_j57432302682772_1_alg».proof.Proof.GatherCases
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! # The gather region's schedule

Position `t` of the `391 × 98` grid is the point `(t / 98, t % 98)`. The source words' window and the output window
follow the outer coordinate (edge block `t / 98`), the feature table's window the inner one (node block `t % 98`). The
output block is written back when its index is about to change or the grid ends: at the positions ≡ 97 (mod 98). -/

/-- The current staging memref of each window at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

/-- The kernel body at point `t`, on what the pipeline calls it with. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

theorem N0_eq : grid0.N = 38318 := N_0

/-- The index maps on coordinates: a coordinate below `2 ^ 32` is its own 32-bit word. -/
theorem tr0_0 (i : grid0.Coords) : cc0_transform_0 i = ![(i 0).val] := by
  unfold cc0_transform_0
  funext a
  match a with
  | ⟨0, _⟩ =>
    show (BitVec.ofNat 32 (i 0).val).toNat = (i 0).val
    rw [BitVec.toNat_ofNat]; exact Nat.mod_eq_of_lt (lt_trans (i 0).isLt (by decide))
theorem tr0_1 (i : grid0.Coords) : cc0_transform_1 i = ![(i 1).val, 0] := by
  unfold cc0_transform_1
  funext a
  match a with
  | ⟨0, _⟩ =>
    show (BitVec.ofNat 32 (i 1).val).toNat = (i 1).val
    rw [BitVec.toNat_ofNat]; exact Nat.mod_eq_of_lt (lt_trans (i 1).isLt (by decide))
  | ⟨1, _⟩ => rfl
theorem tr0_2 (i : grid0.Coords) : cc0_transform_2 i = ![(i 0).val, 0] := by
  unfold cc0_transform_2
  funext a
  match a with
  | ⟨0, _⟩ =>
    show (BitVec.ofNat 32 (i 0).val).toNat = (i 0).val
    rw [BitVec.toNat_ofNat]; exact Nat.mod_eq_of_lt (lt_trans (i 0).isLt (by decide))
  | ⟨1, _⟩ => rfl

/-- The block indices at position `t`. -/
theorem index0_0 (t : Fin cfg0.N) : (cfg0.win 0).index t = ![t.val / 98] := by
  show cc0_transform_0 (grid0.coords t) = _
  rw [tr0_0, outer0]
theorem index0_1 (t : Fin cfg0.N) : (cfg0.win 1).index t = ![t.val % 98, 0] := by
  show cc0_transform_1 (grid0.coords t) = _
  rw [tr0_1, inner0]
theorem index0_2 (t : Fin cfg0.N) : (cfg0.win 2).index t = ![t.val / 98, 0] := by
  show cc0_transform_2 (grid0.coords t) = _
  rw [tr0_2, outer0]

/-- The output block is written back exactly at the positions ≡ 97 (mod 98). -/
theorem flush0_2 (t : Fin cfg0.N) : (cfg0.win 2).flush t = true ↔ t.val % 98 = 97 := by
  have hN : grid0.N = 38318 := N_0
  have ht : t.val < 38318 := lt_of_lt_of_eq t.isLt hN
  unfold Pipeline.Window.flush
  rw [show (cfg0.win 2).isOut = true from rfl, Bool.true_and, Bool.or_eq_true, decide_eq_true_eq, decide_eq_true_eq]
  constructor
  · rintro (h | ⟨h, hne⟩)
    · have : t.val + 1 = 38318 := h.trans hN
      omega
    · rw [index0_2, index0_2] at hne
      by_contra hc
      apply hne
      have e : (t.val + 1) / 98 = t.val / 98 := by omega
      show ![(t.val + 1) / 98, 0] = ![t.val / 98, 0]
      rw [e]
  · intro h
    by_cases hl : t.val + 1 = grid0.N
    · exact .inl hl
    · refine .inr ⟨lt_of_le_of_ne (Nat.succ_le_of_lt t.isLt) hl, ?_⟩
      rw [index0_2, index0_2]
      intro e
      have e0 : (t.val + 1) / 98 = t.val / 98 := congrFun e 0
      omega

end Cert.KernelIdeal.Hand

end
-- ==== Proof.GatherBody.lean ====
import proofs.«411747_j57432302682772_1_alg».proof.Proof.Gen.KernelIdeal.Launch
import proofs.«411747_j57432302682772_1_alg».proof.Proof.Gen.KernelIdeal.Skeleton
import proofs.«411747_j57432302682772_1_alg».proof.Proof.GatherCases
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather kernel's body, case by case

At a grid point `(eb, nb)` the body adds to a running `4096 × 128` table (kept in scratch between points) the product of
a `4096 × 1024` zero-one matrix — row `r` has its one at column `k` exactly when source word `r` of the edge block is node
`nb · 1024 + k` — with the `1024 × 128` block `nb` of the padded feature table. At the first point of a row of the grid
(`nb = 0`) the table is first zeroed; at the last (`nb = 97`) it is copied, after the sum, into the output block. -/

/-- The whole-buffer rectangles the body loads and stores through. -/
abbrev rAcc0 : Rect S4096x128 := Rect.unit (s := S4096x128) ![0, 0] S4096x128.size inb_S4096x128_S4096x128_0_0
abbrev rIdx0 : Rect S4096 := Rect.unit (s := S4096) ![0] S4096.size inb_S4096_S4096_0
abbrev rTab0 : Rect S1024x128 := Rect.unit (s := S1024x128) ![0, 0] S1024x128.size inb_S1024x128_S1024x128_0_0

theorem zeros2 : (![0, 0] : Fin 2 → Nat) = fun _ => 0 := by funext a; match a with | ⟨0, _⟩ => rfl | ⟨1, _⟩ => rfl
theorem zeros1 : (![0] : Fin 1 → Nat) = fun _ => 0 := by funext a; match a with | ⟨0, _⟩ => rfl

set_option maxHeartbeats 1000000 in
/-- A point that neither zeroes nor writes out: the running table `xs` becomes `xs` plus the point's product. -/
theorem gather_mid (c : Dev nD) (E : Set ℕ) (i : grid0.Coords) (h1 : ¬ first0 i) (h2 : ¬ last0 i)
    (arg2 : Memref sig .tc .vmem S4096 .i32) (harg2 : arg2.IsWhole) (arg3 : Memref sig .tc .vmem S1024x128 .bf16) (harg3 : arg3.IsWhole)
    (arg4 : Memref sig .tc .vmem S4096x128 .bf16) (harg4 : arg4.IsWhole) (arg5 : Memref sig .tc .vmem S4096x128 .f32) (harg5 : arg5.IsWhole)
    (x0 : Vec F S4096 .i32) (x1 : Vec F S1024x128 .bf16) (xs : Vec F S4096x128 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k0_pay2 i x0 xs x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%fs, %hfs, HS⟩, Hk⟩
  subst hf0 hf1 hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_singleton_self _, View.mem_set_unit_zero zeros2 inb_S4096x128_S4096x128_0_0 y⟩),
    View.canon_unit_zero zeros2]
  simp only [View.readAt_eq_ld, View.ld_unit_zero (S := S4096x128) zeros2, View.ld_unit_zero (S := S1024x128) zeros2,
    View.ld_unit_zero (S := S4096) zeros1]

set_option maxHeartbeats 1000000 in
/-- The first point of a row of the grid: whatever the scratch held, it ends at the point's product over zero. -/
theorem gather_first (c : Dev nD) (E : Set ℕ) (i : grid0.Coords) (h1 : first0 i) (h2 : ¬ last0 i)
    (arg2 : Memref sig .tc .vmem S4096 .i32) (harg2 : arg2.IsWhole) (arg3 : Memref sig .tc .vmem S1024x128 .bf16) (harg3 : arg3.IsWhole)
    (arg4 : Memref sig .tc .vmem S4096x128 .bf16) (harg4 : arg4.IsWhole) (arg5 : Memref sig .tc .vmem S4096x128 .f32) (harg5 : arg5.IsWhole)
    (x0 : Vec F S4096 .i32) (x1 : Vec F S1024x128 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 i x0 (k0_pay1 (F := F)) x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%ds, %fs, -, HS⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero zeros2 inb_S4096x128_S4096x128_0_0 y⟩),
    View.canon_cons_unit_zero zeros2]
  simp only [View.readAt_eq_ld, View.ld_unit_zero (S := S4096x128) zeros2, View.ld_unit_zero (S := S1024x128) zeros2,
    View.ld_unit_zero (S := S4096) zeros1, View.readCov_unit_zero (S := S4096x128) _ zeros2]

set_option maxHeartbeats 1000000 in
/-- The last point of a row of the grid: the sum as at a middle point, then the table written out. -/
theorem gather_last (c : Dev nD) (E : Set ℕ) (i : grid0.Coords) (h1 : ¬ first0 i) (h2 : last0 i)
    (arg2 : Memref sig .tc .vmem S4096 .i32) (harg2 : arg2.IsWhole) (arg3 : Memref sig .tc .vmem S1024x128 .bf16) (harg3 : arg3.IsWhole)
    (arg4 : Memref sig .tc .vmem S4096x128 .bf16) (harg4 : arg4.IsWhole) (arg5 : Memref sig .tc .vmem S4096x128 .f32) (harg5 : arg5.IsWhole)
    (x0 : Vec F S4096 .i32) (x1 : Vec F S1024x128 .bf16) (xs : Vec F S4096x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 i x0 xs x1))
            ∗ owns (c : Thread nD τ) arg5 fullShare (k0_pay2 i x0 xs x1)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d4, %f4, -, H4⟩, ⟨%fs, %hfs, HS⟩, Hk⟩
  subst hf0 hf1 hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_singleton_self _, View.mem_set_unit_zero zeros2 inb_S4096x128_S4096x128_0_0 y⟩),
      View.canon_unit_zero zeros2]
    simp only [View.readAt_eq_ld, View.ld_unit_zero (S := S4096x128) zeros2, View.ld_unit_zero (S := S1024x128) zeros2,
      View.ld_unit_zero (S := S4096) zeros1, View.readCov_unit_zero (S := S4096x128) _ zeros2]
  iexists _; isplitr
  swap; · iexact HS
  ipureintro
  sl_unfold_words
  rw [View.read_writes_eq_canon _ _ _ (fun y => ⟨_, List.mem_singleton_self _, View.mem_set_unit_zero zeros2 inb_S4096x128_S4096x128_0_0 y⟩),
    View.canon_unit_zero zeros2]
  simp only [View.readAt_eq_ld, View.ld_unit_zero (S := S4096x128) zeros2, View.ld_unit_zero (S := S1024x128) zeros2,
    View.ld_unit_zero (S := S4096) zeros1]

end Cert.KernelIdeal.Hand

end
-- ==== Proof.GatherObligation.lean ====
import proofs.«411747_j57432302682772_1_alg».proof.Proof.Gen.KernelIdeal.Launch
import proofs.«411747_j57432302682772_1_alg».proof.Proof.Gen.KernelIdeal.Skeleton
import proofs.«411747_j57432302682772_1_alg».proof.Proof.GatherCases
import proofs.«411747_j57432302682772_1_alg».proof.Proof.GatherSchedule
import proofs.«411747_j57432302682772_1_alg».proof.Proof.GatherBody
import proofs.«411747_j57432302682772_1_alg».proof.Proof.GatherData
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The gather region's body obligation

At every point the body, handed the invariant and the three windows' buffers, returns them one point later: the inputs
untouched, the scratch table advanced by the point's product, the output window written at a row's last point and left
as found elsewhere. -/

/-- Where the table is not written out the pipeline does not write the output block back either. -/
theorem noFlush0_2 (t : Fin cfg0.N) (h : ¬ last0 (grid0.coords t)) : (cfg0.win 2).flush t = false := by
  have hn : ¬ ((cfg0.win 2).flush t = true) := fun e => h ((hlast0 t).mpr ((flush0_2 t).mp e))
  exact Bool.eq_false_iff.mpr hn

section
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: which of the three cases the point is in is read off its position; the invariant hands the
    body the scratch table at what the point before left (at anything, at a row's first point) and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases hl : last0 (grid0.coords t)
  · have hl' := (hlast0 t).mp hl
    have hf : ¬ first0 (grid0.coords t) := fun h => by have := (hfirst0 t).mp h; omega
    have hz : t.val ≠ 0 := fun e => by rw [e] at hl'; omega
    rw [show (dat0 V c).leavesExact 2 t = owns (c : Thread nD τ) (st0_2 t) fullShare ((dat0 V c).after 2 t) from by
      unfold Dat.leavesExact; rw [liveAt0_2 t hl], after0_2]
    rw [acc0_next V c t (fun e => hf ((hfirst0 t).mpr e))]
    rw [Phi0_castSucc V c t, PhiS0_pos V c _ _ hz]
    iintro ⟨⟨⟨HS, Hrest⟩, Hg⟩, Ho, ⟨%d0, H0⟩, ⟨%d1, H1⟩, ⟨%d2, H2⟩⟩
    iapply (gather_last c Set.univ (grid0.coords t) hf hl _ _ _ _ _ _ _ _ (srcBlk0 V c t) (tabBlk0 V c t)
      (acc0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t hl) (noFlush0_2 t hl)]
    by_cases hf : first0 (grid0.coords t)
    · rw [acc0_first V c t ((hfirst0 t).mp hf)]
      by_cases hz : t.val = 0
      · rw [Phi0_castSucc V c t, PhiS0_zero V c _ _ hz, PhiA0_eq]
        iintro ⟨⟨⟨HS, Hrest⟩, Hg⟩, Ho, ⟨%d0, H0⟩, ⟨%d1, H1⟩, ⟨%d2, H2⟩⟩
        iapply (gather_first c Set.univ (grid0.coords t) hf hl _ _ _ _ _ _ _ _ (srcBlk0 V c t) (tabBlk0 V c t) _)
        isplitl [H0]; · iexact H0
        isplitl [H1]; · iexact H1
        isplitl [HS]; · iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists d2; iexact H2
      · rw [Phi0_castSucc V c t, PhiS0_pos V c _ _ hz]
        iintro ⟨⟨⟨HS, Hrest⟩, Hg⟩, Ho, ⟨%d0, H0⟩, ⟨%d1, H1⟩, ⟨%d2, H2⟩⟩
        iapply (gather_first c Set.univ (grid0.coords t) hf hl _ _ _ _ _ _ _ _ (srcBlk0 V c t) (tabBlk0 V c t) _)
        isplitl [H0]; · iexact H0
        isplitl [H1]; · iexact H1
        isplitl [HS]; · iexists _; iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists d2; iexact H2
    · have hf' : ¬ t.val % 98 = 0 := fun e => hf ((hfirst0 t).mpr e)
      have hz : t.val ≠ 0 := fun e => hf' (by rw [e])
      rw [acc0_next V c t hf']
      rw [Phi0_castSucc V c t, PhiS0_pos V c _ _ hz]
      iintro ⟨⟨⟨HS, Hrest⟩, Hg⟩, Ho, ⟨%d0, H0⟩, ⟨%d1, H1⟩, ⟨%d2, H2⟩⟩
      iapply (gather_mid c Set.univ (grid0.coords t) hf hl _ _ _ _ _ _ _ _ (srcBlk0 V c t) (tabBlk0 V c t)
        (acc0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.ScatterData.lean ====
import proofs.«411747_j57432302682772_1_alg».proof.Proof.Gen.KernelIdeal.Launch
import proofs.«411747_j57432302682772_1_alg».proof.Proof.Gen.KernelIdeal.Skeleton
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter region: what its buffers hold, point by point

The grid is `98 × 391`, walked row by row: position `n` is the point `(n / 391, n % 391)`. Along a row the node block is
fixed and the edge block advances, so the scratch table accumulates over the 391 points of a row and is written out at
the row's last point. Everything is stated at a parameter `V`: the buffers' contents when the region is entered. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of 4096 target words at point `t`. -/
abbrev dstBlk1 (c : Dev nD) (t : Fin cfg1.N) : Vec F S4096 .i32 := iblk1 V c 0 t
/-- The block of 4096 gathered rows at point `t`. -/
abbrev msgBlk1 (c : Dev nD) (t : Fin cfg1.N) : Vec F S4096x128 .bf16 := iblk1 V c 1 t

/-- An input window's buffer holds its block at every point, fetched there or not: where it is not fetched the block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING TABLE after the point at position `n`: the point's product added to what the point before left, or to
    zero at the first point of a row of the grid (positions ≡ 0 mod 391). -/
def acc1 (c : Dev nD) : (n : ℕ) → n < cfg1.N → Vec F S1024x128 .f32
  | 0, hn => k1_pay2 (grid1.coords ⟨0, hn⟩) (dstBlk1 V c ⟨0, hn⟩) (msgBlk1 V c ⟨0, hn⟩) (k1_pay1 (F := F))
  | n + 1, hn => k1_pay2 (grid1.coords ⟨n + 1, hn⟩) (dstBlk1 V c ⟨n + 1, hn⟩) (msgBlk1 V c ⟨n + 1, hn⟩)
      (if (n + 1) % 391 = 0 then k1_pay1 (F := F) else acc1 c n (Nat.lt_of_succ_lt hn))

/-- At the first point of a row the table restarts from zero. -/
theorem acc1_first (c : Dev nD) (t : Fin cfg1.N) (h : t.val % 391 = 0) :
    acc1 V c t.val t.isLt = k1_pay2 (grid1.coords t) (dstBlk1 V c t) (msgBlk1 V c t) (k1_pay1 (F := F)) := by
  obtain ⟨n, hn⟩ := t
  cases n with
  | zero => rfl
  | succ n => show k1_pay2 _ _ _ (if (n + 1) % 391 = 0 then _ else _) = _; rw [if_pos h]

/-- Elsewhere it continues from what the point before left. -/
theorem acc1_next (c : Dev nD) (t : Fin cfg1.N) (h : ¬ t.val % 391 = 0) :
    acc1 V c t.val t.isLt = k1_pay2 (grid1.coords t) (dstBlk1 V c t) (msgBlk1 V c t)
      (acc1 V c (t.val - 1) (Nat.lt_of_le_of_lt (Nat.sub_le _ _) t.isLt)) := by
  obtain ⟨n, hn⟩ := t
  cases n with
  | zero => exact absurd (Nat.zero_mod _) h
  | succ n => show k1_pay2 _ _ _ (if (n + 1) % 391 = 0 then _ else _) = _; rw [if_neg h]; rfl

/-- The scratch table, a whole scoped buffer of the kernel's own. -/
abbrev scM1 : Memref sig .tc .vmem S1024x128 .f32 := Memref.whole cc1_scratch0

/-- The region's invariant before position `n`: before the first point every scoped buffer that is no staging buffer
    at some contents; afterwards the scratch table at what the point before left, the others still at some contents;
    always the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

end

/-- The class invariant with the scratch table split off as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]
  rfl

section
variable (V : (c : Dev nD) → (b : Ref sig .tc) → Buf (Elt F) ((c : Thread nD τ).loc b))

/-- THE PROOF DATA of the scatter region on core `c`: the arrays as the region finds them; after the body each input's
    buffer at its block and the output's at the running table (written out only at a row's last point: elsewhere the
    window is idle and this entry is not read); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

end Cert.KernelIdeal.Hand

end
-- ==== Proof.ScatterCases.lean ====
import proofs.«411747_j57432302682772_1_alg».proof.Proof.Gen.KernelIdeal.Launch

noncomputable section

namespace Cert.KernelIdeal.Hand

open Cert.KernelIdeal Cert.KernelIdeal.Gen
open Idealize.ShloMosaic Idealize.SL.Sem

/-! # The scatter kernel's two branches, over the grid

The grid is `98 × 391`, walked row by row, so position `t` is the point `(t / 391, t % 391)`. The body zeroes its running
table where the inner coordinate is 0 and writes it out where the inner coordinate is 390; both tests read the inner
coordinate only, so each is decided over its 391 values. -/

/-- The point is the first of its row of the grid: the running table is zeroed before the sum. -/
abbrev first1 (i : grid1.Coords) : Prop := (Scalar.cmpi .ne (Scalar.extui (Scalar.cmpi .eq (BitVec.ofNat 32 (i 1).val) 0#32)) 0#32) = 1#1
/-- The point is the last of its row of the grid: the running table is written out after the sum. -/
abbrev last1 (i : grid1.Coords) : Prop := k1_cond2 i = 1#1

/-- The inner coordinate of position `t` is `t % 391`; the outer one is `t / 391`. -/
theorem inner1 (t : Fin grid1.N) : ((grid1.coords t) 1).val = t.val % 391 := by
  show t.val / grid1.stride 1 % 391 = _
  rw [show grid1.stride 1 = 1 from by decide, Nat.div_one]
theorem outer1 (t : Fin grid1.N) : ((grid1.coords t) 0).val = t.val / 391 := by
  show t.val / grid1.stride 0 % 98 = _
  rw [show grid1.stride 0 = 391 from by decide]
  have : t.val < 38318 := lt_of_lt_of_eq t.isLt (by decide)
  omega

theorem first1_of_inner : ∀ k : Fin 391, ((Scalar.cmpi .ne (Scalar.extui (Scalar.cmpi .eq (BitVec.ofNat 32 k.val) 0#32)) 0#32) = 1#1) ↔ k.val = 0 := by
  decide
theorem last1_of_inner : ∀ k : Fin 391, ((Scalar.cmpi .ne (Scalar.extui (Scalar.cmpi .eq (BitVec.ofNat 32 k.val) 390#32)) 0#32) = 1#1) ↔ k.val = 390 := by
  decide

/-- The table is zeroed exactly at the positions ≡ 0 (mod 391), -/
theorem hfirst1 (t : Fin cfg1.N) : first1 (grid1.coords t) ↔ t.val % 391 = 0 :=
  (first1_of_inner ((grid1.coords t) 1)).trans (by rw [inner1])
/-- and written out exactly at the positions ≡ 390 (mod 391). -/
theorem hlast1 (t : Fin cfg1.N) : last1 (grid1.coords t) ↔ t.val % 391 = 390 :=
  (last1_of_inner ((grid1.coords t) 1)).trans (by rw [inner1])

/-- The input windows are never idle; the output window is idle exactly where the body does not write it. -/
theorem liveAt1_0 (t : Fin cfg1.N) : cfg1.idle 0 (grid1.coords t) = false := rfl
theorem liveAt1_1 (t : Fin cfg1.N) : cfg1.idle 1 (grid1.coords t) = false := rfl
theorem idleAt1_2 (t : Fin cfg1.N) (h : ¬ last1 (grid1.coords t)) : cfg1.idle 2 (grid1.coords t) = true := by
  show (!(k1_cond2 (grid1.coords t) == 1#1)) = true
  simp only [Bool.not_eq_true', beq_eq_false_iff_ne, ne_eq]; exact h
theorem liveAt1_2 (t : Fin cfg1.N) (h : last1 (grid1.coords t)) : cfg1.idle 2 (grid1.coords t) = false := by
  show (!(k1_cond2 (grid1.coords t) == 1#1)) = false
  simp only [Bool.not_eq_false', beq_iff_eq]; exact h

end Cert.KernelIdeal.Hand

end
-- ==== Proof.ScatterSchedule.lean ====
import proofs.«411747_j57432302682772_1_alg».proof.Proof.Gen.KernelIdeal.Launch
import proofs.«411747_j57432302682772_1_alg».proof.Proof.ScatterCases
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! # The scatter region's schedule

Position `t` of the `98 × 391` grid is the point `(t / 391, t % 391)`. The target words' window and the gathered rows'
window follow the inner coordinate (edge block `t % 391`), the output window the outer one (node block `t / 391`). The
output block is written back when its index is about to change or the grid ends: at the positions ≡ 390 (mod 391). -/

/-- The current staging memref of each window at point `t`. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The kernel body at point `t`, on what the pipeline calls it with. -/
abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

theorem N1_eq : grid1.N = 38318 := N_1

/-- The index maps on coordinates: a coordinate below `2 ^ 32` is its own 32-bit word. -/
theorem tr1_0 (i : grid1.Coords) : cc1_transform_0 i = ![(i 1).val] := by
  unfold cc1_transform_0
  funext a
  match a with
  | ⟨0, _⟩ =>
    show (BitVec.ofNat 32 (i 1).val).toNat = (i 1).val
    rw [BitVec.toNat_ofNat]; exact Nat.mod_eq_of_lt (lt_trans (i 1).isLt (by decide))
theorem tr1_1 (i : grid1.Coords) : cc1_transform_1 i = ![(i 1).val, 0] := by
  unfold cc1_transform_1
  funext a
  match a with
  | ⟨0, _⟩ =>
    show (BitVec.ofNat 32 (i 1).val).toNat = (i 1).val
    rw [BitVec.toNat_ofNat]; exact Nat.mod_eq_of_lt (lt_trans (i 1).isLt (by decide))
  | ⟨1, _⟩ => rfl
theorem tr1_2 (i : grid1.Coords) : cc1_transform_2 i = ![(i 0).val, 0] := by
  unfold cc1_transform_2
  funext a
  match a with
  | ⟨0, _⟩ =>
    show (BitVec.ofNat 32 (i 0).val).toNat = (i 0).val
    rw [BitVec.toNat_ofNat]; exact Nat.mod_eq_of_lt (lt_trans (i 0).isLt (by decide))
  | ⟨1, _⟩ => rfl

/-- The block indices at position `t`. -/
theorem index1_0 (t : Fin cfg1.N) : (cfg1.win 0).index t = ![t.val % 391] := by
  show cc1_transform_0 (grid1.coords t) = _
  rw [tr1_0, inner1]
theorem index1_1 (t : Fin cfg1.N) : (cfg1.win 1).index t = ![t.val % 391, 0] := by
  show cc1_transform_1 (grid1.coords t) = _
  rw [tr1_1, inner1]
theorem index1_2 (t : Fin cfg1.N) : (cfg1.win 2).index t = ![t.val / 391, 0] := by
  show cc1_transform_2 (grid1.coords t) = _
  rw [tr1_2, outer1]

/-- The output block is written back exactly at the positions ≡ 390 (mod 391). -/
theorem flush1_2 (t : Fin cfg1.N) : (cfg1.win 2).flush t = true ↔ t.val % 391 = 390 := by
  have hN : grid1.N = 38318 := N_1
  have ht : t.val < 38318 := lt_of_lt_of_eq t.isLt hN
  unfold Pipeline.Window.flush
  rw [show (cfg1.win 2).isOut = true from rfl, Bool.true_and, Bool.or_eq_true, decide_eq_true_eq, decide_eq_true_eq]
  constructor
  · rintro (h | ⟨h, hne⟩)
    · have : t.val + 1 = 38318 := h.trans hN
      omega
    · rw [index1_2, index1_2] at hne
      by_contra hc
      apply hne
      have e : (t.val + 1) / 391 = t.val / 391 := by omega
      show ![(t.val + 1) / 391, 0] = ![t.val / 391, 0]
      rw [e]
  · intro h
    by_cases hl : t.val + 1 = grid1.N
    · exact .inl hl
    · refine .inr ⟨lt_of_le_of_ne (Nat.succ_le_of_lt t.isLt) hl, ?_⟩
      rw [index1_2, index1_2]
      intro e
      have e0 : (t.val + 1) / 391 = t.val / 391 := congrFun e 0
      omega

end Cert.KernelIdeal.Hand

end
-- ==== Proof.ScatterBody.lean ====
import proofs.«411747_j57432302682772_1_alg».proof.Proof.Gen.KernelIdeal.Launch
import proofs.«411747_j57432302682772_1_alg».proof.Proof.Gen.KernelIdeal.Skeleton
import proofs.«411747_j57432302682772_1_alg».proof.Proof.ScatterCases
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter kernel's body, case by case

At a grid point `(nb, eb)` the body adds to a running `1024 × 128` table (kept in scratch between points) the product of
the TRANSPOSE of a `4096 × 1024` zero-one matrix — row `r` has its one at column `k` exactly when target word `r` of the
edge block is node `nb · 1024 + k` — with the `4096 × 128` block `eb` of the gathered rows: entry `(k, d)` gains the sum of
the rows whose target is node `nb · 1024 + k`. At the first point of a row of the grid (`eb = 0`) the table is first
zeroed; at the last (`eb = 390`) it is copied, after the sum, into the output block. -/

theorem zeros2' : (![0, 0] : Fin 2 → Nat) = fun _ => 0 := by funext a; match a with | ⟨0, _⟩ => rfl | ⟨1, _⟩ => rfl
theorem zeros1' : (![0] : Fin 1 → Nat) = fun _ => 0 := by funext a; match a with | ⟨0, _⟩ => rfl

set_option maxHeartbeats 1000000 in
/-- A point that neither zeroes nor writes out: the running table `xs` becomes `xs` plus the point's product. -/
theorem scatter_mid (c : Dev nD) (E : Set ℕ) (i : grid1.Coords) (h1 : ¬ first1 i) (h2 : ¬ last1 i)
    (arg2 : Memref sig .tc .vmem S4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (x0 : Vec F S4096 .i32) (x1 : Vec F S4096x128 .bf16) (xs : Vec F S1024x128 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%fs, %hfs, HS⟩, Hk⟩
  subst hf0 hf1 hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_singleton_self _, View.mem_set_unit_zero zeros2' inb_S1024x128_S1024x128_0_0 y⟩),
    View.canon_unit_zero zeros2']
  simp only [View.readAt_eq_ld, View.ld_unit_zero (S := S4096x128) zeros2', View.ld_unit_zero (S := S1024x128) zeros2',
    View.ld_unit_zero (S := S4096) zeros1']

set_option maxHeartbeats 1000000 in
/-- The first point of a row of the grid: whatever the scratch held, it ends at the point's product over zero. -/
theorem scatter_first (c : Dev nD) (E : Set ℕ) (i : grid1.Coords) (h1 : first1 i) (h2 : ¬ last1 i)
    (arg2 : Memref sig .tc .vmem S4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (x0 : Vec F S4096 .i32) (x1 : Vec F S4096x128 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 i x0 x1 (k1_pay1 (F := F)))) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%ds, %fs, -, HS⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero zeros2' inb_S1024x128_S1024x128_0_0 y⟩),
    View.canon_cons_unit_zero zeros2']
  simp only [View.readAt_eq_ld, View.ld_unit_zero (S := S4096x128) zeros2', View.ld_unit_zero (S := S1024x128) zeros2',
    View.ld_unit_zero (S := S4096) zeros1', View.readCov_unit_zero (S := S1024x128) _ zeros2']

set_option maxHeartbeats 1000000 in
/-- The last point of a row of the grid: the sum as at a middle point, then the table written out. -/
theorem scatter_last (c : Dev nD) (E : Set ℕ) (i : grid1.Coords) (h1 : ¬ first1 i) (h2 : last1 i)
    (arg2 : Memref sig .tc .vmem S4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (x0 : Vec F S4096 .i32) (x1 : Vec F S4096x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 i x0 x1 xs)
            ∗ owns (c : Thread nD τ) arg5 fullShare (k1_pay2 i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d4, %f4, -, H4⟩, ⟨%fs, %hfs, HS⟩, Hk⟩
  subst hf0 hf1 hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_singleton_self _, View.mem_set_unit_zero zeros2' inb_S1024x128_S1024x128_0_0 y⟩),
      View.canon_unit_zero zeros2']
    simp only [View.readAt_eq_ld, View.ld_unit_zero (S := S4096x128) zeros2', View.ld_unit_zero (S := S1024x128) zeros2',
      View.ld_unit_zero (S := S4096) zeros1', View.readCov_unit_zero (S := S1024x128) _ zeros2']
  iexists _; isplitr
  swap; · iexact HS
  ipureintro
  sl_unfold_words
  rw [View.read_writes_eq_canon _ _ _ (fun y => ⟨_, List.mem_singleton_self _, View.mem_set_unit_zero zeros2' inb_S1024x128_S1024x128_0_0 y⟩),
    View.canon_unit_zero zeros2']
  simp only [View.readAt_eq_ld, View.ld_unit_zero (S := S4096x128) zeros2', View.ld_unit_zero (S := S1024x128) zeros2',
    View.ld_unit_zero (S := S4096) zeros1']

end Cert.KernelIdeal.Hand

end
-- ==== Proof.ScatterObligation.lean ====
import proofs.«411747_j57432302682772_1_alg».proof.Proof.Gen.KernelIdeal.Launch
import proofs.«411747_j57432302682772_1_alg».proof.Proof.Gen.KernelIdeal.Skeleton
import proofs.«411747_j57432302682772_1_alg».proof.Proof.ScatterCases
import proofs.«411747_j57432302682772_1_alg».proof.Proof.ScatterSchedule
import proofs.«411747_j57432302682772_1_alg».proof.Proof.ScatterBody
import proofs.«411747_j57432302682772_1_alg».proof.Proof.ScatterData
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scatter region's body obligation

At every point the body, handed the invariant and the three windows' buffers, returns them one point later: the inputs
untouched, the scratch table advanced by the point's product, the output window written at a row's last point and left
as found elsewhere. -/

/-- Where the table is not written out the pipeline does not write the output block back either. -/
theorem noFlush1_2 (t : Fin cfg1.N) (h : ¬ last1 (grid1.coords t)) : (cfg1.win 2).flush t = false := by
  have hn : ¬ ((cfg1.win 2).flush t = true) := fun e => h ((hlast1 t).mpr ((flush1_2 t).mp e))
  exact Bool.eq_false_iff.mpr hn

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is read off its position; the invariant hands the
    body the scratch table at what the point before left (at anything, at a row's first point) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases hl : last1 (grid1.coords t)
  · have hl' := (hlast1 t).mp hl
    have hf : ¬ first1 (grid1.coords t) := fun h => by have := (hfirst1 t).mp h; omega
    have hz : t.val ≠ 0 := fun e => by rw [e] at hl'; omega
    rw [show (dat1 V c).leavesExact 2 t = owns (c : Thread nD τ) (st1_2 t) fullShare ((dat1 V c).after 2 t) from by
      unfold Dat.leavesExact; rw [liveAt1_2 t hl], after1_2]
    rw [acc1_next V c t (fun e => hf ((hfirst1 t).mpr e))]
    rw [Phi1_castSucc V c t, PhiS1_pos V c _ _ hz]
    iintro ⟨⟨⟨HS, Hrest⟩, Hg⟩, Ho, ⟨%d0, H0⟩, ⟨%d1, H1⟩, ⟨%d2, H2⟩⟩
    iapply (scatter_last c Set.univ (grid1.coords t) hf hl _ _ _ _ _ _ _ _ (dstBlk1 V c t) (msgBlk1 V c t)
      (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idleAt1_2 t hl) (noFlush1_2 t hl)]
    by_cases hf : first1 (grid1.coords t)
    · rw [acc1_first V c t ((hfirst1 t).mp hf)]
      by_cases hz : t.val = 0
      · rw [Phi1_castSucc V c t, PhiS1_zero V c _ _ hz, PhiA1_eq]
        iintro ⟨⟨⟨HS, Hrest⟩, Hg⟩, Ho, ⟨%d0, H0⟩, ⟨%d1, H1⟩, ⟨%d2, H2⟩⟩
        iapply (scatter_first c Set.univ (grid1.coords t) hf hl _ _ _ _ _ _ _ _ (dstBlk1 V c t) (msgBlk1 V c t) _)
        isplitl [H0]; · iexact H0
        isplitl [H1]; · iexact H1
        isplitl [HS]; · iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists d2; iexact H2
      · rw [Phi1_castSucc V c t, PhiS1_pos V c _ _ hz]
        iintro ⟨⟨⟨HS, Hrest⟩, Hg⟩, Ho, ⟨%d0, H0⟩, ⟨%d1, H1⟩, ⟨%d2, H2⟩⟩
        iapply (scatter_first c Set.univ (grid1.coords t) hf hl _ _ _ _ _ _ _ _ (dstBlk1 V c t) (msgBlk1 V c t) _)
        isplitl [H0]; · iexact H0
        isplitl [H1]; · iexact H1
        isplitl [HS]; · iexists _; iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists d2; iexact H2
    · have hf' : ¬ t.val % 391 = 0 := fun e => hf ((hfirst1 t).mpr e)
      have hz : t.val ≠ 0 := fun e => hf' (by rw [e])
      rw [acc1_next V c t hf']
      rw [Phi1_castSucc V c t, PhiS1_pos V c _ _ hz]
      iintro ⟨⟨⟨HS, Hrest⟩, Hg⟩, Ho, ⟨%d0, H0⟩, ⟨%d1, H1⟩, ⟨%d2, H2⟩⟩
      iapply (scatter_mid c Set.univ (grid1.coords t) hf hl _ _ _ _ _ _ _ _ (dstBlk1 V c t) (msgBlk1 V c t)
        (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelRun.lean ====
import proofs.«411747_j57432302682772_1_alg».proof.Proof.Gen.KernelIdeal.Launch
import proofs.«411747_j57432302682772_1_alg».proof.Proof.Gen.KernelIdeal.Skeleton
import proofs.«411747_j57432302682772_1_alg».proof.Proof.Gen.KernelIdeal.Regions
import proofs.«411747_j57432302682772_1_alg».proof.Proof.GatherData
import proofs.«411747_j57432302682772_1_alg».proof.Proof.GatherObligation
import proofs.«411747_j57432302682772_1_alg».proof.Proof.ScatterData
import proofs.«411747_j57432302682772_1_alg».proof.Proof.ScatterObligation
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run

@main is seven stretches of host operations, the gather region, the scatter region, and a closing slice. Between two
items the core holds every unscoped buffer at known contents: the launch memory pushed through the host stretches, then
the gather's output array at what its write-backs leave, then the scatter's. -/

/-- After its last point each region's invariant gives the class invariant back: the scratch table's contents are
    forgotten. -/
theorem Phi0_out (V : (c : Dev nD) → (b : Ref sig .tc) → Buf (Elt F) ((c : Thread nD τ).loc b)) (c : Dev nD) :
    (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 38318 := N_0; omega), PhiA0_eq]
  iintro ⟨⟨HS, Hrest⟩, Hg⟩
  isplitl [HS Hrest]
  · isplitl [HS]; · iexists _; iexact HS
    iexact Hrest
  iexact Hg
theorem Phi1_out (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 38318 := N_1; omega), PhiA1_eq]
  iintro ⟨⟨HS, Hrest⟩, Hg⟩
  isplitl [HS Hrest]
  · isplitl [HS]; · iexists _; iexact HS
    iexact Hrest
  iexact Hg

variable (m : (ℓ : Loc nD τ sig) → Buf (Elt F) ℓ)

/-! ## The buffers' contents around the regions -/

/-- The contents at the gather region's entry, read at the TensorCore's references. -/
abbrev E7 : (c : Dev nD) → (b : Ref sig .tc) → Buf (Elt F) ((c : Thread nD τ).loc b) := fun c b => V7 m c b
/-- At the gather region's exit: its arrays at what the pipeline leaves, every other buffer as entered. -/
def W8 (c : Dev nD) : Valuation τ sig (Elt F) :=
  Pipeline.withArrays spec0 c (V7 m c) fun w => (dat0 (E7 m) c).arrAt w cfg0.N
/-- What the gather region leaves, as the unknowns the generated valuations are written over. -/
def outs8 : Outs (F := F) := fun _ r c => W8 m c r
/-- The contents at the scatter region's entry. -/
abbrev E8 : (c : Dev nD) → (b : Ref sig .tc) → Buf (Elt F) ((c : Thread nD τ).loc b) := fun c b => V8 m (outs8 m) c b
/-- At the scatter region's exit. -/
def W9 (c : Dev nD) : Valuation τ sig (Elt F) :=
  Pipeline.withArrays spec1 c (V8 m (outs8 m) c) fun w => (dat1 (E8 m) c).arrAt w cfg1.N
/-- What the two regions leave: item 8's result read off `W8`, item 9's off `W9`. -/
def outs : Outs (F := F) := fun n r c => if n = 8 then W8 m c r else W9 m c r

theorem V8_outs (c : Dev nD) : V8 m (outs m) c = V8 m (outs8 m) c := rfl

/-- The gather's output array after the region is what its write-backs leave. -/
theorem V8_main_v8 (c : Dev nD) : V8 m (outs m) c main_v8 = (dat0 (E7 m) c).arrAt 2 cfg0.N := by
  show Function.update (V7 m c) (Proc.devRef .tc main_v8) (outs m 8 main_v8 c) (Proc.devRef .tc main_v8) = _
  rw [Function.update_self]
  show W8 m c (Proc.devRef .tc main_v8) = _
  unfold W8
  exact Pipeline.withArrays_arr spec0 launch0.win.arr_inj c _ _ 2
/-- The scatter's output array after the region is what its write-backs leave. -/
theorem V9_main_v9 (c : Dev nD) : V9 m (outs m) c main_v9 = (dat1 (E8 m) c).arrAt 2 cfg1.N := by
  show Function.update (V8 m (outs m) c) (Proc.devRef .tc main_v9) (outs m 9 main_v9 c) (Proc.devRef .tc main_v9) = _
  rw [Function.update_self]
  show W9 m c (Proc.devRef .tc main_v9) = _
  unfold W9
  exact Pipeline.withArrays_arr spec1 launch1.win.arr_inj c _ _ 2

/-- At the gather region's exit each of its arrays holds what the pipeline leaves and every other buffer what it held
    at entry. -/
theorem hF0 (c : Dev nD) (w : Fin cfg0.W) : (dat0 (E7 m) c).arrAt w cfg0.N = V8 m (outs m) c (Pipeline.arrRef spec0 w) := by
  match w with
  | ⟨0, _⟩ => exact ((dat0 (E7 m) c).arrAt_in 0 rfl _).trans ((A_eq0 (E7 m) c 0).trans (V8_of m (outs m) c main_v4 (by decide)).symm)
  | ⟨1, _⟩ => exact ((dat0 (E7 m) c).arrAt_in 1 rfl _).trans ((A_eq0 (E7 m) c 1).trans (V8_of m (outs m) c main_v7 (by decide)).symm)
  | ⟨2, _⟩ => exact (V8_main_v8 m c).symm
theorem hrest0 (c : Dev nD) : ∀ b, b ∉ Finset.univ.image (Pipeline.arrRef spec0) → V8 m (outs m) c b = V7 m c b :=
  fun b hb => V8_of m (outs m) c b fun h => hb (Finset.mem_image.mpr ⟨2, Finset.mem_univ _, (List.mem_singleton.mp h).symm⟩)
/-- The same at the scatter region's exit. -/
theorem hF1 (c : Dev nD) (w : Fin cfg1.W) : (dat1 (E8 m) c).arrAt w cfg1.N = V9 m (outs m) c (Pipeline.arrRef spec1 w) := by
  match w with
  | ⟨0, _⟩ => exact ((dat1 (E8 m) c).arrAt_in 0 rfl _).trans ((A_eq1 (E8 m) c 0).trans (V9_of m (outs m) c main_v5 (by decide)).symm)
  | ⟨1, _⟩ => exact ((dat1 (E8 m) c).arrAt_in 1 rfl _).trans ((A_eq1 (E8 m) c 1).trans (V9_of m (outs m) c main_v8 (by decide)).symm)
  | ⟨2, _⟩ => exact (V9_main_v9 m c).symm
theorem hrest1 (c : Dev nD) : ∀ b, b ∉ Finset.univ.image (Pipeline.arrRef spec1) → V9 m (outs m) c b = V8 m (outs8 m) c b :=
  fun b hb => V9_of m (outs m) c b fun h => hb (Finset.mem_image.mpr ⟨2, Finset.mem_univ _, (List.mem_singleton.mp h).symm⟩)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E8 m) c
/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state: entered from every unscoped buffer at the contents before it, left at the contents
    after it. Its arrays are split out of the unscoped buffers at entry and put back, the output at what the region
    wrote, at exit; the generator register goes into the invariant and comes back; nothing is owed; the kernel has no
    semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ Lz lvz 0 fun _ _ => rfl
  pre c := iprop(StableHlo.held (c : Thread nD τ) (Pipeline.ucRefs τ sig) (V7 m c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_out (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at the contents before it, left at the contents
    after it. Its arrays are split out of the unscoped buffers at entry and put back, the output at what the region
    wrote, at exit; the generator register goes into the invariant and comes back; nothing is owed; the kernel has no
    semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ Lz lvz 1 fun _ _ => rfl
  pre c := iprop(StableHlo.held (c : Thread nD τ) (Pipeline.ucRefs τ sig) (V8 m (outs8 m) c) ∗ Rst c)
  post c := iprop(StableHlo.held (c : Thread nD τ) (Pipeline.ucRefs τ sig) (V9 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out (E8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m c) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE FRAME, at any float instance: from any memory with zero counters every weakly fair execution of @main terminates,
    nothing faulting, and the two arguments end as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun c => by rw [V8_outs m c]; exact .rfl) (hpost1 := fun _ => .rfl)

end Cert.KernelIdeal.Hand

end
-- ==== Proof.KernelValueRun.lean ====
import proofs.«411747_j57432302682772_1_alg».proof.Proof.Gen.KernelIdeal.Launch
import proofs.«411747_j57432302682772_1_alg».proof.Proof.Gen.KernelIdeal.Regions
import proofs.«411747_j57432302682772_1_alg».proof.Proof.KernelRun
import proofs.«411747_j57432302682772_1_alg».proof.Proof.KernelLaunch
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run with the result's value

The same launch over the same two region records, its conclusion also reading the result buffer off the last
valuation: the closing slice of what the scatter region left. -/

-- the launch theorem's implicit arguments are found by unifying its conclusion with this one, which takes unfolding
-- plain definitions in a metavariable's type
set_option backward.isDefEq.respectTransparency.types false in
/-- THE RUN, at any float instance: from any memory with zero counters every weakly fair execution of @main terminates,
    nothing faulting; the result buffer ends at the last valuation's contents and the two arguments as launched. -/
theorem run_main (ρ : Dev nD → PrngReg) :
    θ_run defs (onTc (τ := τ) (main (F := F))) ⟨m, fun _ => 0, ρ⟩ (fun r => ∀ c : Dev nD,
      r.2.mem ((c.tc : Thread nD τ).loc main_v10) = V10 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.KernelIdeal.GenP.run_cond m emb₁ () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun c => by rw [V8_outs m c]; exact .rfl) (hpost1 := fun _ => .rfl)

end Cert.KernelIdeal.Hand

end
-- ==== Proof.GatherPayload.lean ====
import proofs.«411747_j57432302682772_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.ValueIdx
open scoped BigOperators

/-! # The gather kernel's arithmetic, read at one entry

Over the extended reals a change of float format is the identity and the matrix product into a zero accumulator is a
plain sum. The `4096 × 1024` matrix has a one at `(r, k)` exactly when source word `r` equals the node number
`nb · 1024 + k` as 32-bit words (`nb` the grid's inner coordinate), and zero elsewhere, so entry `(r, d)` of the product
is the sum over `k` of the table block's `(k, d)` where the words agree. -/

/-! ## Words and one-hot entries -/

/-- The node number `n · 1024 + k` as the kernel builds it: the block's first node as a word, plus the lane number. -/
private theorem node_word (n k : ℕ) :
    IntOp.addi (Scalar.muli (BitVec.ofNat 32 n) 1024#32) (BitVec.ofNat 32 k) = BitVec.ofNat 32 (n * 1024 + k) := by
  unfold IntOp.addi Scalar.muli IntOp.muli
  rw [BitVec.ofNat_add, BitVec.ofNat_mul]

/-- A one-hot entry times a value: the value where the two words agree, zero elsewhere. -/
private theorem onehot_mul (a b : BitVec 32) (v : EReal) :
    (Scalar.select (IntOp.cmpi .eq a b) (Ideal.ofBits .f32 0x3F800000#32) (Ideal.ofBits .f32 0x00000000#32) : EReal) * v
      = if a = b then v else 0 := by
  by_cases h : a = b
  · rw [if_pos h, IntOp.cmpi_eq.2 h, select_one, Ideal.ofBits_one_f32, one_mul]
  · have hc : ¬ IntOp.cmpi .eq a b = 1#1 := fun hh => h (IntOp.cmpi_eq.1 hh)
    rw [if_neg h, eq_zero_of_ne_one hc, select_zero, Ideal.ofBits_zero_f32, zero_mul]

/-- The word vector, stood up as a column and copied along every row, reads word `r` at `(r, k)`. -/
private theorem col_read (x0 : IVec S4096 32) (h1 : S4096.ShapeCasts S4096x1) (h2 : S4096x1.Broadcasts S4096x1024)
    (r : Fin 4096) (k : Fin 1024) :
    broadcastTo S4096x1024 (shapeCast S4096x1 x0 h1) h2 (ix2 r k) = x0 (ix1 r) := by
  rw [broadcastTo_apply _ h2 (ix2 r k) (ix2 r (0 : Fin 1)) (fun a => by
    match a with
    | ⟨0, _⟩ => rfl
    | ⟨1, _⟩ => rfl)]
  exact shapeCast_apply x0 h1 _ _ (by
    rw [Shape.rowMajor_val_one, Shape.rowMajor_val_two]
    show r.val = r.val * 1 + 0
    omega)

/-! ## The product's operand indices, coordinate by coordinate

The left operand is read at (row of the result, contraction position), the right operand at (contraction position,
column of the result). -/

private theorem lhs_gather_0 (j : S4096x128.Idx) (q : dot_S4096x1024_S1024x128_S4096x128_1_0_0_1_n_n.contr.Idx) :
    ((dot_S4096x1024_S1024x128_S4096x128_1_0_0_1_n_n.lhsIdx j q) 0 : ℕ) = j 0 := by
  simp [DotDims.lhsIdx, dot_S4096x1024_S1024x128_S4096x128_1_0_0_1_n_n]; rfl

private theorem lhs_gather_1 (j : S4096x128.Idx) (q : dot_S4096x1024_S1024x128_S4096x128_1_0_0_1_n_n.contr.Idx) :
    ((dot_S4096x1024_S1024x128_S4096x128_1_0_0_1_n_n.lhsIdx j q) 1 : ℕ) = q ⟨0, by decide⟩ :=
  dot_S4096x1024_S1024x128_S4096x128_1_0_0_1_n_n.lhsIdx_val_of_single rfl j q

private theorem rhs_gather_0 (j : S4096x128.Idx) (q : dot_S4096x1024_S1024x128_S4096x128_1_0_0_1_n_n.contr.Idx) :
    ((dot_S4096x1024_S1024x128_S4096x128_1_0_0_1_n_n.rhsIdx j q) 0 : ℕ) = q ⟨0, by decide⟩ :=
  dot_S4096x1024_S1024x128_S4096x128_1_0_0_1_n_n.rhsIdx_val_of_single rfl j q

private theorem rhs_gather_1 (j : S4096x128.Idx) (q : dot_S4096x1024_S1024x128_S4096x128_1_0_0_1_n_n.contr.Idx) :
    ((dot_S4096x1024_S1024x128_S4096x128_1_0_0_1_n_n.rhsIdx j q) 1 : ℕ) = j 1 := by
  simp [DotDims.rhsIdx, dot_S4096x1024_S1024x128_S4096x128_1_0_0_1_n_n]; rfl

/-! ## The payloads -/

/-- The zeroing payload is zero everywhere. -/
theorem k0_pay1_apply (j : S4096x128.Idx) : k0_pay1 (F := Ideal) j = 0 := by
  unfold k0_pay1
  rw [shapeCast_self]
  exact Ideal.ofBits_zero_f32

/-- The running table after a point: what it held plus, at `(r, d)`, the table block's rows `k` whose node number is
    source word `r`. -/
theorem k0_pay2_apply (i : grid0.Coords) (x0 : Vec Ideal S4096 .i32) (xs : Vec Ideal S4096x128 .f32) (x1 : Vec Ideal S1024x128 .bf16)
    (r : Fin 4096) (d : Fin 128) :
    k0_pay2 (F := Ideal) i x0 xs x1 (ix2 r d)
      = xs (ix2 r d) + ∑ k : Fin 1024, (if x0 (ix1 r) = BitVec.ofNat 32 ((i 1).val * 1024 + k.val) then x1 (ix2 k d) else 0) := by
  unfold k0_pay2
  simp only [shapeCast_self, matmul]
  rw [addf_apply, Ideal.matmul_constant_zero_apply]
  refine congrArg (xs (ix2 r d) + ·) ?_
  -- the contraction runs over the 1024 lanes
  rw [← Equiv.sum_comp (contrEquiv1 dot_S4096x1024_S1024x128_S4096x128_1_0_0_1_n_n 1024 rfl rfl).symm]
  refine Finset.sum_congr rfl fun k _ => ?_
  have hl : dot_S4096x1024_S1024x128_S4096x128_1_0_0_1_n_n.lhsIdx (ix2 r d)
      ((contrEquiv1 dot_S4096x1024_S1024x128_S4096x128_1_0_0_1_n_n 1024 rfl rfl).symm k) = ix2 r k :=
    Shape.idx_ext₂ (lhs_gather_0 _ _) ((lhs_gather_1 _ _).trans (contrEquiv1_symm_val _ _ _ _ k))
  have hr : dot_S4096x1024_S1024x128_S4096x128_1_0_0_1_n_n.rhsIdx (ix2 r d)
      ((contrEquiv1 dot_S4096x1024_S1024x128_S4096x128_1_0_0_1_n_n 1024 rfl rfl).symm k) = ix2 k d :=
    Shape.idx_ext₂ ((rhs_gather_0 _ _).trans (contrEquiv1_symm_val _ _ _ _ k)) (rhs_gather_1 _ _)
  rw [hl, hr]
  -- the one-hot entry at (r, k) times the table block's (k, d)
  show (Scalar.select (IntOp.cmpi .eq (broadcastTo S4096x1024 (shapeCast S4096x1 x0 _) _ (ix2 r k))
      (IntOp.addi (Scalar.muli (BitVec.ofNat 32 (i 1).val) 1024#32) (iota .tc S4096x1024 32 [1] _ (ix2 r k))))
      (Ideal.ofBits .f32 0x3F800000#32) (Ideal.ofBits .f32 0x00000000#32) : EReal) * x1 (ix2 k d) = _
  rw [col_read, iota_single_apply, node_word, onehot_mul]

/-- Writing the table out changes its format only. -/
theorem k0_pay3_apply (v : Vec Ideal S4096x128 .f32) (j : S4096x128.Idx) : k0_pay3 (F := Ideal) v j = v j := by
  unfold k0_pay3
  rfl

end Cert.KernelIdeal.Hand

end
-- ==== Proof.Aggregate.lean ====
/-
  Message passing with sum aggregation, as one function of the inputs.

  A graph on 100000 nodes carries a 128-entry feature row per node (`x`) and 1600000 edges, each a pair of
  32-bit words (`ei`: row 0 the source, row 1 the target). Every node collects the feature rows of the
  sources of the edges that point at it:

      aggregate x ei (n, k) = ∑ over edges e with target n, of x (source e, k).

  An edge whose source word names no row contributes the zero row, and one whose target word names no node
  contributes nowhere; both are what a comparison of the word against the node numbers gives.
-/
import Idealize.ShloMosaic.PureOps.Ideal
import Idealize.ShloMosaic.Lib.ValueIdx

noncomputable section

namespace Cert.Agg

open Idealize.ShloMosaic Idealize.ShloMosaic.ValueIdx
open scoped BigOperators

/-- The feature table's shape: one row of 128 entries per node. -/
abbrev SX : Shape := ⟨2, ![100000, 128]⟩
/-- The edge list's shape: a row of sources over a row of targets. -/
abbrev SE : Shape := ⟨2, ![2, 1600000]⟩

/-- Entry `k` of the row the word `s` names; zero when `s`, read unsigned, is past the last row. -/
def rowAt (x : SX.Idx → EReal) (s : BitVec 32) (k : Fin 128) : EReal :=
  if h : s.toNat < 100000 then x (ix2 (⟨s.toNat, h⟩ : Fin 100000) k) else 0

/-- Edge `e`'s source word. -/
def srcOf (ei : IVec SE 32) (e : Fin 1600000) : BitVec 32 := ei (ix2 (0 : Fin 2) e)
/-- Edge `e`'s target word. -/
def dstOf (ei : IVec SE 32) (e : Fin 1600000) : BitVec 32 := ei (ix2 (1 : Fin 2) e)

/-- What node `n` collects at entry `k`: the sum, over the edges whose target word is `n`, of the source's
    entry `k`. -/
def aggregate (x : SX.Idx → EReal) (ei : IVec SE 32) : SX.Idx → EReal := fun i =>
  ∑ e : Fin 1600000, if dstOf ei e = BitVec.ofNat 32 (i 0).val then rowAt x (srcOf ei e) (i 1) else 0

/-- A source word in range, read signed, is in range read unsigned, and `rowAt` is the table's row. -/
theorem rowAt_of_range (x : SX.Idx → EReal) (s : BitVec 32) (k : Fin 128)
    (h0 : 0 ≤ s.toInt) (h1 : s.toInt < 100000) :
    rowAt x s k = x (ix2 (⟨s.toInt.toNat, by omega⟩ : Fin 100000) k) := by
  have hn : s.toInt = (s.toNat : ℤ) := by
    rw [BitVec.toInt_eq_toNat_cond] at h0 ⊢
    split
    · rfl
    · rename_i hh; exfalso; rw [if_neg hh] at h0; have := s.isLt; omega
  have hlt : s.toNat < 100000 := by omega
  unfold rowAt
  rw [dif_pos hlt]
  congr 2
  refine Fin.ext ?_
  show s.toNat = s.toInt.toNat
  omega

end Cert.Agg

end
-- ==== Proof.KernelSpec.lean ====
/-
  The two stages of the kernel's computation, each as one function of its inputs, over padded arrays.

  The edge list is padded from 1600000 to 1601536 edges (391 blocks of 4096) and the feature table from 100000 to
  100352 rows (98 blocks of 1024). A padded edge has source word 0 and target word 100352, one past the last padded
  row, so it lands on no row; a padded row of the table is zero.

  * `gatherRows`: row `e` is the table's row named by source word `e` (zero when the word names no padded row);
  * `scatterRows`: row `n` is the sum of the rows `e` whose target word is `n`.
-/
import Idealize.ShloMosaic.PureOps.Ideal
import Idealize.ShloMosaic.Lib.ValueIdx
import proofs.«411747_j57432302682772_1_alg».proof.Proof.Aggregate

noncomputable section

namespace Cert.Agg

open Idealize.ShloMosaic Idealize.ShloMosaic.ValueIdx
open scoped BigOperators

/-- The padded edge words' shape, the padded table's, and the gathered rows'. -/
abbrev SEp : Shape := ⟨1, ![1601536]⟩
abbrev SXp : Shape := ⟨2, ![100352, 128]⟩
abbrev SMp : Shape := ⟨2, ![1601536, 128]⟩

/-- The source words padded with 0. -/
def padSrc (ei : IVec SE 32) : IVec SEp 32 := fun j =>
  if h : (j 0).val < 1600000 then srcOf ei ⟨(j 0).val, h⟩ else 0#32
/-- The target words padded with 100352. -/
def padDst (ei : IVec SE 32) : IVec SEp 32 := fun j =>
  if h : (j 0).val < 1600000 then dstOf ei ⟨(j 0).val, h⟩ else 100352#32
/-- The feature table padded with zero rows. -/
def padRows (x : SX.Idx → EReal) : SXp.Idx → EReal := fun j =>
  if h : (j 0).val < 100000 then x (ix2 (⟨(j 0).val, h⟩ : Fin 100000) (j 1)) else 0

/-- Row `e` of the result is the padded table's row that source word `e` names, zero when it names none. -/
def gatherRows (srcp : IVec SEp 32) (xp : SXp.Idx → EReal) : SMp.Idx → EReal := fun j =>
  if h : (srcp (ix1 (j 0))).toNat < 100352 then xp (ix2 (⟨(srcp (ix1 (j 0))).toNat, h⟩ : Fin 100352) (j 1)) else 0

/-- Row `n` of the result is the sum of the rows `e` whose target word is `n`. -/
def scatterRows (dstp : IVec SEp 32) (msg : SMp.Idx → EReal) : SXp.Idx → EReal := fun j =>
  ∑ e : Fin 1601536, if dstp (ix1 e) = BitVec.ofNat 32 (j 0).val then msg (ix2 e (j 1)) else 0

end Cert.Agg

end
-- ==== Proof.GatherValue.lean ====
import proofs.«411747_j57432302682772_1_alg».proof.Proof.Gen.KernelIdeal.Launch
import proofs.«411747_j57432302682772_1_alg».proof.Proof.Gen.KernelIdeal.Skeleton
import proofs.«411747_j57432302682772_1_alg».proof.Proof.GatherCases
import proofs.«411747_j57432302682772_1_alg».proof.Proof.GatherSchedule
import proofs.«411747_j57432302682772_1_alg».proof.Proof.GatherData
import proofs.«411747_j57432302682772_1_alg».proof.Proof.GatherPayload
import proofs.«411747_j57432302682772_1_alg».proof.Proof.KernelSpec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! # What the gather region leaves in its output array

Along row `eb` of the grid the running table accumulates, over the 98 node blocks, the rows of the padded feature table
whose node number is the source word: at `(r, d)` at most one of the `98 · 1024` terms is not zero, the one at the node the
word names. The row's last point writes the table out as block `eb` of the output, and the 391 blocks tile it. -/

/-! ## One-hot sums of words -/

/-- A 32-bit word is the word of a number below 100352 exactly when that number is its value. -/
private theorem word_eq_iff (s : BitVec 32) (n : ℕ) (hn : n < 100352) : s = BitVec.ofNat 32 n ↔ s.toNat = n := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-- Over the `98 · 1024` numbers below 100352, taken block by block, the sum of the terms whose number is the word `s`
    is the term at `s`'s value, or zero when that value is 100352 or more: at most one number is the word, so every other
    term is zero. -/
private theorem onehot_collapse (s : BitVec 32) (g : ℕ → EReal) :
    (∑ nb ∈ Finset.range 98, ∑ k : Fin 1024, (if s = BitVec.ofNat 32 (nb * 1024 + k.val) then g (nb * 1024 + k.val) else 0))
      = if s.toNat < 100352 then g s.toNat else 0 := by
  by_cases hs : s.toNat < 100352
  · rw [if_pos hs]
    have hq : s.toNat / 1024 < 98 := by omega
    -- only block `s / 1024` has a term that is not zero,
    rw [Finset.sum_eq_single (s.toNat / 1024)]
    · -- and in it only the entry `s % 1024`
      rw [Finset.sum_eq_single (⟨s.toNat % 1024, Nat.mod_lt _ (by decide)⟩ : Fin 1024)]
      · have e : s.toNat / 1024 * 1024 + s.toNat % 1024 = s.toNat := by omega
        show (if s = BitVec.ofNat 32 (s.toNat / 1024 * 1024 + s.toNat % 1024) then g (s.toNat / 1024 * 1024 + s.toNat % 1024) else 0) = _
        rw [e, if_pos ((word_eq_iff s _ hs).mpr rfl)]
      · intro k _ hk
        rw [if_neg]
        intro h
        have hk' : k.val < 1024 := k.isLt
        have := (word_eq_iff s _ (by omega)).mp h
        apply hk
        apply Fin.ext
        show k.val = s.toNat % 1024
        omega
      · intro h; exact absurd (Finset.mem_univ _) h
    · intro nb hnb hne
      have hnb' : nb < 98 := Finset.mem_range.mp hnb
      apply Finset.sum_eq_zero
      intro k _
      have hk' : k.val < 1024 := k.isLt
      rw [if_neg]
      intro h
      have := (word_eq_iff s _ (by omega)).mp h
      apply hne
      omega
    · intro h; exact absurd (Finset.mem_range.mpr hq) h
  · -- a word whose value is past the last padded row is no number of the range
    rw [if_neg hs]
    apply Finset.sum_eq_zero
    intro nb hnb
    have hnb' : nb < 98 := Finset.mem_range.mp hnb
    apply Finset.sum_eq_zero
    intro k _
    have hk' : k.val < 1024 := k.isLt
    rw [if_neg]
    intro h
    have := (word_eq_iff s _ (by omega)).mp h
    omega

section
variable (V : (c : Dev nD) → (b : Ref sig .tc) → Buf (Elt Ideal) ((c : Thread nD τ).loc b))

/-! ## The input blocks, entry by entry -/

/-- Word `r` of the source block at position `t` is word `(t / 98) · 4096 + r` of the padded source words. -/
private theorem srcBlk0_apply (c : Dev nD) (t : Fin cfg0.N) (r : Fin 4096) (e : Fin 1601536)
    (he : e.val = t.val / 98 * 4096 + r.val) :
    (srcBlk0 V c t) (ix1 r) = V c main_v4 (ix1 e) := by
  unfold srcBlk0 iblk0
  rw [View.read_apply]
  show V c main_v4 _ = V c main_v4 _
  congr 1
  funext a
  apply Fin.ext
  match a with
  | ⟨0, _⟩ =>
    show win0_0.index t 0 * 4096 + 1 * r.val = e.val
    rw [show win0_0.index t = ![t.val / 98] from index0_0 t, he]
    show t.val / 98 * 4096 + 1 * r.val = _
    omega

/-- Entry `(k, d)` of the table block at position `t` is entry `((t % 98) · 1024 + k, d)` of the padded table. -/
private theorem tabBlk0_apply (c : Dev nD) (t : Fin cfg0.N) (k : Fin 1024) (d : Fin 128) (n : Fin 100352)
    (hn : n.val = t.val % 98 * 1024 + k.val) :
    (tabBlk0 V c t) (ix2 k d) = V c main_v7 (ix2 n d) := by
  unfold tabBlk0 iblk0
  rw [View.read_apply]
  show V c main_v7 _ = V c main_v7 _
  congr 1
  funext a
  apply Fin.ext
  match a with
  | ⟨0, _⟩ =>
    show win0_1.index t 0 * 1024 + 1 * k.val = n.val
    rw [show win0_1.index t = ![t.val % 98, 0] from index0_1 t, hn]
    show t.val % 98 * 1024 + 1 * k.val = _
    omega
  | ⟨1, _⟩ =>
    show win0_1.index t 1 * 128 + 1 * d.val = d.val
    rw [show win0_1.index t = ![t.val % 98, 0] from index0_1 t]
    show 0 * 128 + 1 * d.val = _
    omega

/-! ## The running table in closed form -/

/-- Entry `d` of the padded table's row number `n`, zero past the last padded row. -/
private def tabAt (c : Dev nD) (d : Fin 128) (n : ℕ) : EReal :=
  if h : n < 100352 then V c main_v7 (ix2 (⟨n, h⟩ : Fin 100352) d) else 0

/-- After position `n` the running table holds at `(r, d)` the sum, over the node blocks `0 … n % 98` of the row of the
    grid walked so far, of the padded table's entries `(nb · 1024 + k, d)` whose node number is source word
    `(n / 98) · 4096 + r`. By induction along the row: its first point adds its block to zero, every later one to what the
    point before left, and the point before lies in the same row, one node block earlier. -/
private theorem acc0_closed (c : Dev nD) (r : Fin 4096) (d : Fin 128) :
    ∀ (n : ℕ) (hn : n < cfg0.N) (e : Fin 1601536) (he : e.val = n / 98 * 4096 + r.val),
      acc0 V c n hn (ix2 r d)
        = ∑ nb ∈ Finset.range (n % 98 + 1), ∑ k : Fin 1024,
            (if V c main_v4 (ix1 e) = BitVec.ofNat 32 (nb * 1024 + k.val) then tabAt V c d (nb * 1024 + k.val) else 0) := by
  intro n
  induction n using Nat.strong_induction_on with
  | _ n ih =>
    intro hn e he
    have hN : n < 38318 := lt_of_lt_of_eq hn N0_eq
    -- the point's own addend: node block `n % 98`
    have hstep : ∀ xs : Vec Ideal S4096x128 .f32,
        k0_pay2 (F := Ideal) (grid0.coords ⟨n, hn⟩) (srcBlk0 V c ⟨n, hn⟩) xs (tabBlk0 V c ⟨n, hn⟩) (ix2 r d)
          = xs (ix2 r d) + ∑ k : Fin 1024,
              (if V c main_v4 (ix1 e) = BitVec.ofNat 32 (n % 98 * 1024 + k.val) then tabAt V c d (n % 98 * 1024 + k.val) else 0) := by
      intro xs
      rw [k0_pay2_apply, srcBlk0_apply V c ⟨n, hn⟩ r e he, inner0]
      congr 1
      refine Finset.sum_congr rfl fun k _ => ?_
      have hk : k.val < 1024 := k.isLt
      have hlt : n % 98 * 1024 + k.val < 100352 := by omega
      rw [tabBlk0_apply V c ⟨n, hn⟩ k d ⟨n % 98 * 1024 + k.val, hlt⟩ rfl]
      unfold tabAt
      rw [dif_pos hlt]
    by_cases h0 : n % 98 = 0
    · -- the first point of a row: one node block, added to zero
      refine (congrFun (acc0_first V c ⟨n, hn⟩ h0) (ix2 r d)).trans ?_
      rw [hstep, k0_pay1_apply, zero_add, h0, Finset.sum_range_one]
    · -- a later point: the point before is in the same row, at node block `n % 98 - 1`
      refine (congrFun (acc0_next V c ⟨n, hn⟩ h0) (ix2 r d)).trans ?_
      rw [hstep]
      have hm : n - 1 < n := by omega
      rw [ih (n - 1) hm _ e (by rw [he]; omega)]
      rw [show n % 98 + 1 = ((n - 1) % 98 + 1) + 1 from by omega, Finset.sum_range_succ _ ((n - 1) % 98 + 1)]
      rw [show (n - 1) % 98 + 1 = n % 98 from by omega]

/-! ## What a row's last point writes out, and where -/

/-- The gathered rows at an entry with row `e` and column `d`: the padded table's row that source word `e` names. -/
private theorem gatherRows_apply (c : Dev nD) (J : Cert.Agg.SMp.Idx) (e : Fin 1601536) (d : Fin 128)
    (h0 : (J 0).val = e.val) (h1 : (J 1).val = d.val) :
    Cert.Agg.gatherRows (V c main_v4) (V c main_v7) J
      = if (V c main_v4 (ix1 e)).toNat < 100352 then tabAt V c d (V c main_v4 (ix1 e)).toNat else 0 := by
  obtain rfl : J = ix2 e d := by
    funext a
    apply Fin.ext
    match a with
    | ⟨0, _⟩ => exact h0
    | ⟨1, _⟩ => exact h1
  unfold Cert.Agg.gatherRows tabAt
  show ((if h : (V c main_v4 (ix1 e)).toNat < 100352 then V c main_v7 (ix2 (⟨(V c main_v4 (ix1 e)).toNat, h⟩ : Fin 100352) d) else 0 : EReal)) = _
  by_cases h : (V c main_v4 (ix1 e)).toNat < 100352
  · rw [dif_pos h, if_pos h]
  · rw [dif_neg h, if_neg h]

/-- What a row's last point (positions ≡ 97 mod 98) writes back is its block of the gathered rows: the running table
    has by then summed over all 98 node blocks, the sum collapses to the one row the source word names, and the block's
    entry `(r, d)` sits at row `(t / 98) · 4096 + r`, column `d` of the output. -/
private theorem flushed0_2_eq (c : Dev nD) (t : Fin cfg0.N) (hf : (cfg0.win 2).flush t = true) :
    (dat0 (F := Ideal) V c).flushed 2 t
      = ((cfg0.win 2).blk t).view.read (Elt Ideal) (Cert.Agg.gatherRows (V c main_v4) (V c main_v7)) := by
  have h97 : t.val % 98 = 97 := (flush0_2 t).mp hf
  have hN : t.val < 38318 := lt_of_lt_of_eq t.isLt N0_eq
  show (cfg0.win 2).cut (grid0.coords t) ((dat0 (F := Ideal) V c).after 2 t) = _
  rw [after0_2]
  funext j
  obtain ⟨r, d, rfl⟩ : ∃ (r : Fin 4096) (d : Fin 128), j = ix2 r d := ⟨j 0, j 1, eq_ix2 j⟩
  rw [View.read_apply]
  show k0_pay3 (F := Ideal) (acc0 V c t.val t.isLt) (ix2 r d)
    = Cert.Agg.gatherRows (V c main_v4) (V c main_v7) (((cfg0.win 2).blk t).view.emb (ix2 r d))
  have hr : r.val < 4096 := r.isLt
  have he : t.val / 98 * 4096 + r.val < 1601536 := by omega
  rw [k0_pay3_apply, acc0_closed V c r d t.val t.isLt ⟨_, he⟩ rfl, show t.val % 98 + 1 = 98 from by omega, onehot_collapse]
  refine (gatherRows_apply V c _ ⟨_, he⟩ d ?_ ?_).symm
  · show win0_2.index t 0 * 4096 + 1 * r.val = t.val / 98 * 4096 + r.val
    rw [show win0_2.index t = ![t.val / 98, 0] from index0_2 t]
    show t.val / 98 * 4096 + 1 * r.val = _
    omega
  · show win0_2.index t 1 * 128 + 1 * d.val = d.val
    rw [show win0_2.index t = ![t.val / 98, 0] from index0_2 t]
    show 0 * 128 + 1 * d.val = _
    omega

/-- An entry of the output lies in the block of position `t` exactly when each coordinate lies in the block's range. -/
private theorem mem_blk0_2 (t : Fin cfg0.N) (i : S1601536x128.Idx) :
    i ∈ ((cfg0.win 2).blk t).view.set
      ↔ ∀ a : Fin 2, win0_2.index t a * S4096x128.size a ≤ (i a).val ∧ (i a).val < win0_2.index t a * S4096x128.size a + S4096x128.size a := by
  show i ∈ ((View.whole main_v8).slice (win0_2.rect t)).set ↔ _
  rw [View.set_slice_whole, Rect.mem_set_unit]
  exact Iff.rfl

/-- The 391 blocks tile the output: entry `(e, d)` lies in the block written at the last point of row `e / 4096` of the
    grid, position `(e / 4096) · 98 + 97`. -/
private theorem cover0_2 (i : S1601536x128.Idx) :
    ∃ t : Fin cfg0.N, (cfg0.win 2).flush t = true ∧ i ∈ ((cfg0.win 2).blk t).view.set := by
  have h0 : (i 0).val < 1601536 := (i 0).isLt
  have h1 : (i 1).val < 128 := (i 1).isLt
  have hN : (i 0).val / 4096 * 98 + 97 < cfg0.N := lt_of_lt_of_eq (by omega) N0_eq.symm
  refine ⟨⟨(i 0).val / 4096 * 98 + 97, hN⟩, (flush0_2 _).mpr (by show ((i 0).val / 4096 * 98 + 97) % 98 = 97; omega), ?_⟩
  rw [mem_blk0_2]
  intro a
  match a with
  | ⟨0, _⟩ =>
    show win0_2.index ⟨(i 0).val / 4096 * 98 + 97, hN⟩ 0 * 4096 ≤ (i 0).val
      ∧ (i 0).val < win0_2.index ⟨(i 0).val / 4096 * 98 + 97, hN⟩ 0 * 4096 + 4096
    rw [show win0_2.index ⟨(i 0).val / 4096 * 98 + 97, hN⟩ = ![((i 0).val / 4096 * 98 + 97) / 98, 0] from index0_2 _]
    show ((i 0).val / 4096 * 98 + 97) / 98 * 4096 ≤ (i 0).val ∧ (i 0).val < ((i 0).val / 4096 * 98 + 97) / 98 * 4096 + 4096
    omega
  | ⟨1, _⟩ =>
    show win0_2.index ⟨(i 0).val / 4096 * 98 + 97, hN⟩ 1 * 128 ≤ (i 1).val
      ∧ (i 1).val < win0_2.index ⟨(i 0).val / 4096 * 98 + 97, hN⟩ 1 * 128 + 128
    rw [show win0_2.index ⟨(i 0).val / 4096 * 98 + 97, hN⟩ = ![((i 0).val / 4096 * 98 + 97) / 98, 0] from index0_2 _]
    show 0 * 128 ≤ (i 1).val ∧ (i 1).val < 0 * 128 + 128
    omega

end

/-- THE GATHERED ROWS: after the region the output array holds, in row `e`, the padded table's row named by source
    word `e` — zero when the word names no padded row. Every block written back is its block of the gathered rows, and
    the blocks written back cover the array. -/
theorem gather_value (V : (c : Dev nD) → (b : Ref sig .tc) → Buf (Elt Ideal) ((c : Thread nD τ).loc b)) (c : Dev nD) :
    (dat0 (F := Ideal) V c).arrAt 2 cfg0.N = Cert.Agg.gatherRows (V c main_v4) (V c main_v7) :=
  (dat0 (F := Ideal) V c).arrAt_eq_of_cover 2 (Cert.Agg.gatherRows (V c main_v4) (V c main_v7)) (flushed0_2_eq V c) cover0_2

end Cert.KernelIdeal.Hand

end
-- ==== Proof.ScatterPayload.lean ====
import proofs.«411747_j57432302682772_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.ValueIdx
open scoped BigOperators

/-! # The scatter kernel's arithmetic, read at one entry

Over the extended reals a change of float format is the identity and the matrix product into a zero accumulator is a
plain sum. The `4096 × 1024` matrix has a one at `(r, k)` exactly when target word `r` equals the node number
`nb · 1024 + k` as 32-bit words (`nb` the grid's outer coordinate), and zero elsewhere; the product contracts over `r`, so
entry `(k, d)` is the sum over `r` of the gathered block's `(r, d)` where the words agree. -/

/-! ## Words and one-hot entries -/

/-- The node number `n · 1024 + k` as the kernel builds it: the block's first node as a word, plus the lane number. -/
private theorem node_word (n k : ℕ) :
    IntOp.addi (Scalar.muli (BitVec.ofNat 32 n) 1024#32) (BitVec.ofNat 32 k) = BitVec.ofNat 32 (n * 1024 + k) := by
  unfold IntOp.addi Scalar.muli IntOp.muli
  rw [BitVec.ofNat_add, BitVec.ofNat_mul]

/-- A one-hot entry times a value: the value where the two words agree, zero elsewhere. -/
private theorem onehot_mul (a b : BitVec 32) (v : EReal) :
    (Scalar.select (IntOp.cmpi .eq a b) (Ideal.ofBits .f32 0x3F800000#32) (Ideal.ofBits .f32 0x00000000#32) : EReal) * v
      = if a = b then v else 0 := by
  by_cases h : a = b
  · rw [if_pos h, IntOp.cmpi_eq.2 h, select_one, Ideal.ofBits_one_f32, one_mul]
  · have hc : ¬ IntOp.cmpi .eq a b = 1#1 := fun hh => h (IntOp.cmpi_eq.1 hh)
    rw [if_neg h, eq_zero_of_ne_one hc, select_zero, Ideal.ofBits_zero_f32, zero_mul]

/-- The word vector, stood up as a column and copied along every row, reads word `r` at `(r, k)`. -/
private theorem col_read (x0 : IVec S4096 32) (h1 : S4096.ShapeCasts S4096x1) (h2 : S4096x1.Broadcasts S4096x1024)
    (r : Fin 4096) (k : Fin 1024) :
    broadcastTo S4096x1024 (shapeCast S4096x1 x0 h1) h2 (ix2 r k) = x0 (ix1 r) := by
  rw [broadcastTo_apply _ h2 (ix2 r k) (ix2 r (0 : Fin 1)) (fun a => by
    match a with
    | ⟨0, _⟩ => rfl
    | ⟨1, _⟩ => rfl)]
  exact shapeCast_apply x0 h1 _ _ (by
    rw [Shape.rowMajor_val_one, Shape.rowMajor_val_two]
    show r.val = r.val * 1 + 0
    omega)

/-! ## The product's operand indices, coordinate by coordinate

The one-hot matrix enters the product transposed: both operands are contracted over their rows. The left operand is
read at (contraction position, row of the result), the right operand at (contraction position, column of the result). -/

private theorem lhs_scatter_0 (j : S1024x128.Idx) (q : dot_S4096x1024_S4096x128_S1024x128_0_0_1_1_n_n.contr.Idx) :
    ((dot_S4096x1024_S4096x128_S1024x128_0_0_1_1_n_n.lhsIdx j q) 0 : ℕ) = q ⟨0, by decide⟩ :=
  dot_S4096x1024_S4096x128_S1024x128_0_0_1_1_n_n.lhsIdx_val_of_single rfl j q

private theorem lhs_scatter_1 (j : S1024x128.Idx) (q : dot_S4096x1024_S4096x128_S1024x128_0_0_1_1_n_n.contr.Idx) :
    ((dot_S4096x1024_S4096x128_S1024x128_0_0_1_1_n_n.lhsIdx j q) 1 : ℕ) = j 0 := by
  simp [DotDims.lhsIdx, dot_S4096x1024_S4096x128_S1024x128_0_0_1_1_n_n]; rfl

private theorem rhs_scatter_0 (j : S1024x128.Idx) (q : dot_S4096x1024_S4096x128_S1024x128_0_0_1_1_n_n.contr.Idx) :
    ((dot_S4096x1024_S4096x128_S1024x128_0_0_1_1_n_n.rhsIdx j q) 0 : ℕ) = q ⟨0, by decide⟩ :=
  dot_S4096x1024_S4096x128_S1024x128_0_0_1_1_n_n.rhsIdx_val_of_single rfl j q

private theorem rhs_scatter_1 (j : S1024x128.Idx) (q : dot_S4096x1024_S4096x128_S1024x128_0_0_1_1_n_n.contr.Idx) :
    ((dot_S4096x1024_S4096x128_S1024x128_0_0_1_1_n_n.rhsIdx j q) 1 : ℕ) = j 1 := by
  simp [DotDims.rhsIdx, dot_S4096x1024_S4096x128_S1024x128_0_0_1_1_n_n]; rfl

/-! ## The payloads -/

/-- The zeroing payload is zero everywhere. -/
theorem k1_pay1_apply (j : S1024x128.Idx) : k1_pay1 (F := Ideal) j = 0 := by
  unfold k1_pay1
  rw [shapeCast_self]
  exact Ideal.ofBits_zero_f32

/-- The running table after a point: what it held plus, at `(k, d)`, the gathered block's rows `r` whose target word is
    node `nb · 1024 + k`. -/
theorem k1_pay2_apply (i : grid1.Coords) (x0 : Vec Ideal S4096 .i32) (x1 : Vec Ideal S4096x128 .bf16) (xs : Vec Ideal S1024x128 .f32)
    (k : Fin 1024) (d : Fin 128) :
    k1_pay2 (F := Ideal) i x0 x1 xs (ix2 k d)
      = xs (ix2 k d) + ∑ r : Fin 4096, (if x0 (ix1 r) = BitVec.ofNat 32 ((i 0).val * 1024 + k.val) then x1 (ix2 r d) else 0) := by
  unfold k1_pay2
  simp only [shapeCast_self, matmul]
  rw [addf_apply, Ideal.matmul_constant_zero_apply]
  refine congrArg (xs (ix2 k d) + ·) ?_
  -- the contraction runs over the 4096 edges of the block
  rw [← Equiv.sum_comp (contrEquiv1 dot_S4096x1024_S4096x128_S1024x128_0_0_1_1_n_n 4096 rfl rfl).symm]
  refine Finset.sum_congr rfl fun r _ => ?_
  have hl : dot_S4096x1024_S4096x128_S1024x128_0_0_1_1_n_n.lhsIdx (ix2 k d)
      ((contrEquiv1 dot_S4096x1024_S4096x128_S1024x128_0_0_1_1_n_n 4096 rfl rfl).symm r) = ix2 r k :=
    Shape.idx_ext₂ ((lhs_scatter_0 _ _).trans (contrEquiv1_symm_val _ _ _ _ r)) (lhs_scatter_1 _ _)
  have hr : dot_S4096x1024_S4096x128_S1024x128_0_0_1_1_n_n.rhsIdx (ix2 k d)
      ((contrEquiv1 dot_S4096x1024_S4096x128_S1024x128_0_0_1_1_n_n 4096 rfl rfl).symm r) = ix2 r d :=
    Shape.idx_ext₂ ((rhs_scatter_0 _ _).trans (contrEquiv1_symm_val _ _ _ _ r)) (rhs_scatter_1 _ _)
  rw [hl, hr]
  -- the one-hot entry at (r, k) times the gathered block's (r, d)
  show (Scalar.select (IntOp.cmpi .eq (broadcastTo S4096x1024 (shapeCast S4096x1 x0 _) _ (ix2 r k))
      (IntOp.addi (Scalar.muli (BitVec.ofNat 32 (i 0).val) 1024#32) (iota .tc S4096x1024 32 [1] _ (ix2 r k))))
      (Ideal.ofBits .f32 0x3F800000#32) (Ideal.ofBits .f32 0x00000000#32) : EReal) * x1 (ix2 r d) = _
  rw [col_read, iota_single_apply, node_word, onehot_mul]

end Cert.KernelIdeal.Hand

end
-- ==== Proof.ScatterValue.lean ====
import proofs.«411747_j57432302682772_1_alg».proof.Proof.Gen.KernelIdeal.Launch
import proofs.«411747_j57432302682772_1_alg».proof.Proof.Gen.KernelIdeal.Skeleton
import proofs.«411747_j57432302682772_1_alg».proof.Proof.ScatterCases
import proofs.«411747_j57432302682772_1_alg».proof.Proof.ScatterSchedule
import proofs.«411747_j57432302682772_1_alg».proof.Proof.ScatterData
import proofs.«411747_j57432302682772_1_alg».proof.Proof.ScatterPayload
import proofs.«411747_j57432302682772_1_alg».proof.Proof.KernelSpec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! # What the scatter region leaves in its output array

Along row `nb` of the grid the running table accumulates, over the 391 edge blocks, the gathered rows whose target word is
a node of block `nb`: entry `(k, d)` ends at the sum over all 1601536 padded edges `e` with target word `nb · 1024 + k` of
the gathered `(e, d)`. The row's last point writes the table out as block `nb` of the output, and the 98 blocks tile it. -/

section
variable (V : (c : Dev nD) → (b : Ref sig .tc) → Buf (Elt Ideal) ((c : Thread nD τ).loc b))

/-- A target word of the block at point `t` is word `(t % 391) · 4096 + r` of the padded list. -/
private theorem dstBlk1_apply (c : Dev nD) (t : Fin cfg1.N) (r : Fin 4096) (e : Fin 1601536)
    (he : e.val = (t.val % 391) * 4096 + r.val) :
    (dstBlk1 V c t) (ix1 r) = (V c main_v5 : Cert.Agg.SEp.Idx → BitVec 32) (ix1 e) := by
  unfold dstBlk1 iblk1
  rw [View.read_apply]
  show V c main_v5 _ = V c main_v5 _
  congr 1
  funext a
  apply Fin.ext
  match a with
  | ⟨0, _⟩ =>
    show win1_0.index t 0 * 4096 + 1 * r.val = e.val
    rw [show win1_0.index t = (cfg1.win 0).index t from rfl, index1_0, he]
    show t.val % 391 * 4096 + 1 * r.val = _
    omega

/-- An entry of the gathered block at point `t` is the entry in row `(t % 391) · 4096 + r` of the gathered rows. -/
private theorem msgBlk1_apply (c : Dev nD) (t : Fin cfg1.N) (r : Fin 4096) (d : Fin 128) (e : Fin 1601536)
    (he : e.val = (t.val % 391) * 4096 + r.val) :
    (msgBlk1 V c t) (ix2 r d) = (V c main_v8 : Cert.Agg.SMp.Idx → EReal) (ix2 e d) := by
  unfold msgBlk1 iblk1
  rw [View.read_apply]
  show V c main_v8 _ = V c main_v8 _
  congr 1
  funext a
  apply Fin.ext
  match a with
  | ⟨0, _⟩ =>
    show win1_1.index t 0 * 4096 + 1 * r.val = e.val
    rw [show win1_1.index t = (cfg1.win 1).index t from rfl, index1_1, he]
    show t.val % 391 * 4096 + 1 * r.val = _
    omega
  | ⟨1, _⟩ =>
    show win1_1.index t 1 * 128 + 1 * d.val = d.val
    rw [show win1_1.index t = (cfg1.win 1).index t from rfl, index1_1]
    show 0 * 128 + 1 * d.val = _
    omega

end

section
variable (V : (c : Dev nD) → (b : Ref sig .tc) → Buf (Elt Ideal) ((c : Thread nD τ).loc b))

/-- What padded edge `n` adds to entry `d` of the row that the word `w` names: the gathered `(n, d)` when the edge's target
    word is `w`, and zero otherwise (and zero past the end of the padded list). -/
private def contrib (c : Dev nD) (w : BitVec 32) (d : Fin 128) (n : ℕ) : EReal :=
  if h : n < 1601536 then
    (if (V c main_v5 : Cert.Agg.SEp.Idx → BitVec 32) (ix1 (⟨n, h⟩ : Fin 1601536)) = w
      then (V c main_v8 : Cert.Agg.SMp.Idx → EReal) (ix2 (⟨n, h⟩ : Fin 1601536) d) else 0)
  else 0

/-- One point's addend: the rows of the gathered block at `t` whose target word is node `(t / 391) · 1024 + k`, as the
    contributions of the edges `(t % 391) · 4096 + r`. -/
private theorem point_sum (c : Dev nD) (t : Fin cfg1.N) (k : Fin 1024) (d : Fin 128) :
    (∑ r : Fin 4096, (if dstBlk1 V c t (ix1 r) = BitVec.ofNat 32 (((grid1.coords t) 0).val * 1024 + k.val)
        then msgBlk1 V c t (ix2 r d) else 0) : EReal)
      = ∑ r : Fin 4096, contrib V c (BitVec.ofNat 32 (t.val / 391 * 1024 + k.val)) d (t.val % 391 * 4096 + r.val) := by
  rw [outer1]
  refine Finset.sum_congr rfl fun r _ => ?_
  have hlt : t.val % 391 * 4096 + r.val < 1601536 := by have := r.isLt; omega
  rw [dstBlk1_apply V c t r ⟨_, hlt⟩ rfl, msgBlk1_apply V c t r d ⟨_, hlt⟩ rfl]
  unfold contrib
  rw [dif_pos hlt]

/-- THE RUNNING TABLE IN CLOSED FORM: at the point `j` places into its row of the grid, entry `(k, d)` holds the
    contributions to node `(t / 391) · 1024 + k` of the edge blocks `0 … j`. -/
private theorem acc1_closed (c : Dev nD) (k : Fin 1024) (d : Fin 128) :
    ∀ (j : ℕ) (t : Fin cfg1.N), t.val % 391 = j →
      (acc1 V c t.val t.isLt (ix2 k d) : EReal)
        = ∑ eb ∈ Finset.range (j + 1), ∑ r : Fin 4096,
            contrib V c (BitVec.ofNat 32 (t.val / 391 * 1024 + k.val)) d (eb * 4096 + r.val)
  | 0, t, h => by
    rw [acc1_first V c t h, k1_pay2_apply, k1_pay1_apply, zero_add, Finset.sum_range_one]
    refine (point_sum V c t k d).trans ?_
    rw [h]
  | j + 1, t, h => by
    have hne : ¬ t.val % 391 = 0 := by omega
    rw [acc1_next V c t hne, k1_pay2_apply, Finset.sum_range_succ]
    have hp : t.val - 1 < cfg1.N := Nat.lt_of_le_of_lt (Nat.sub_le _ _) t.isLt
    have hq : (t.val - 1) / 391 = t.val / 391 := by omega
    have ih : (acc1 V c (t.val - 1) hp (ix2 k d) : EReal)
        = ∑ eb ∈ Finset.range (j + 1), ∑ r : Fin 4096,
            contrib V c (BitVec.ofNat 32 ((t.val - 1) / 391 * 1024 + k.val)) d (eb * 4096 + r.val) :=
      acc1_closed c k d j ⟨t.val - 1, hp⟩ (by show (t.val - 1) % 391 = j; omega)
    rw [hq] at ih
    rw [ih]
    congr 1
    refine (point_sum V c t k d).trans ?_
    rw [h]

end

/-- THE BLOCKS TILE THE LIST: summing block by block, `4096` at a time, is summing along the list. -/
private theorem sum_blocks (g : ℕ → EReal) :
    ∀ n : ℕ, ∑ eb ∈ Finset.range n, ∑ r : Fin 4096, g (eb * 4096 + r.val) = ∑ e ∈ Finset.range (n * 4096), g e
  | 0 => by rw [Finset.sum_range_zero, Nat.zero_mul, Finset.sum_range_zero]
  | n + 1 => by
    rw [Finset.sum_range_succ, sum_blocks g n, Nat.succ_mul, Finset.sum_range_add,
      Fin.sum_univ_eq_sum_range (fun r => g (n * 4096 + r)) 4096]

/-- So the 391 blocks' double sum is the sum over all 1601536 padded edges. -/
private theorem sum_all_blocks (g : ℕ → EReal) :
    ∑ eb ∈ Finset.range 391, ∑ r : Fin 4096, g (eb * 4096 + r.val) = ∑ e : Fin 1601536, g e.val := by
  rw [sum_blocks g 391, Fin.sum_univ_eq_sum_range g 1601536]

section
variable (V : (c : Dev nD) → (b : Ref sig .tc) → Buf (Elt Ideal) ((c : Thread nD τ).loc b))

/-- An entry of the output block at point `t`, read off an array `G`, is `G`'s entry in row `(t / 391) · 1024 + k`. -/
private theorem outBlk1_apply (G : Cert.Agg.SXp.Idx → EReal) (t : Fin cfg1.N) (k : Fin 1024) (d : Fin 128) (n : Fin 100352)
    (hn : n.val = t.val / 391 * 1024 + k.val) :
    (((cfg1.win 2).blk t).view.read (Elt Ideal) G : S1024x128.Idx → EReal) (ix2 k d) = G (ix2 n d) := by
  rw [View.read_apply]
  show G _ = G _
  congr 1
  funext a
  apply Fin.ext
  match a with
  | ⟨0, _⟩ =>
    show win1_2.index t 0 * 1024 + 1 * k.val = n.val
    rw [show win1_2.index t = (cfg1.win 2).index t from rfl, index1_2, hn]
    show t.val / 391 * 1024 + 1 * k.val = _
    omega
  | ⟨1, _⟩ =>
    show win1_2.index t 1 * 128 + 1 * d.val = d.val
    rw [show win1_2.index t = (cfg1.win 2).index t from rfl, index1_2]
    show 0 * 128 + 1 * d.val = _
    omega

/-- At the last point of a row of the grid the table holds that row's block of the scattered rows: entry `(k, d)` is the
    sum over all padded edges with target word `(t / 391) · 1024 + k` of the gathered `(e, d)`. -/
private theorem acc1_last (c : Dev nD) (t : Fin cfg1.N) (h : t.val % 391 = 390) (k : Fin 1024) (d : Fin 128) (n : Fin 100352)
    (hn : n.val = t.val / 391 * 1024 + k.val) :
    (acc1 V c t.val t.isLt (ix2 k d) : EReal) = Cert.Agg.scatterRows (V c main_v5) (V c main_v8) (ix2 n d) := by
  rw [acc1_closed V c k d 390 t h, sum_all_blocks]
  unfold Cert.Agg.scatterRows
  refine Finset.sum_congr rfl fun e _ => ?_
  unfold contrib
  rw [dif_pos e.isLt, ← hn]

/-- What a writing point writes back is its block of the scattered rows. -/
private theorem flushed1_eq (c : Dev nD) (t : Fin cfg1.N) (hf : (cfg1.win 2).flush t = true) :
    (dat1 (F := Ideal) V c).flushed 2 t
      = ((cfg1.win 2).blk t).view.read (Elt Ideal) (Cert.Agg.scatterRows (V c main_v5) (V c main_v8)) := by
  have h390 : t.val % 391 = 390 := (flush1_2 t).mp hf
  have hN : t.val < 38318 := lt_of_lt_of_eq t.isLt N1_eq
  show (cfg1.win 2).cut (grid1.coords t) ((dat1 V c).after 2 t) = _
  rw [after1_2]
  show (acc1 V c t.val t.isLt : S1024x128.Idx → EReal) = _
  funext y
  obtain ⟨k, d, rfl⟩ : ∃ (k : Fin 1024) (d : Fin 128), y = ix2 k d := ⟨y 0, y 1, eq_ix2 y⟩
  have hlt : t.val / 391 * 1024 + k.val < 100352 := by have := k.isLt; omega
  exact (acc1_last V c t h390 k d ⟨_, hlt⟩ rfl).trans
    (outBlk1_apply (Cert.Agg.scatterRows (V c main_v5) (V c main_v8)) t k d ⟨_, hlt⟩ rfl).symm

end

/-- THE SCATTERED ROWS: after the region the output array holds, in row `n`, the sum of the gathered rows whose target
    word is `n`. -/
theorem scatter_value (V : (c : Dev nD) → (b : Ref sig .tc) → Buf (Elt Ideal) ((c : Thread nD τ).loc b)) (c : Dev nD) :
    (dat1 (F := Ideal) V c).arrAt 2 cfg1.N = Cert.Agg.scatterRows (V c main_v5) (V c main_v8) := by
  refine (dat1 (F := Ideal) V c).arrAt_eq_of_cover 2 _ (flushed1_eq V c) fun i => ?_
  have hi0 : (i 0).val < 100352 := (i 0).isLt
  have hi1 : (i 1).val < 128 := (i 1).isLt
  have hq : (i 0).val / 1024 * 391 + 390 < cfg1.N := by
    rw [show cfg1.N = grid1.N from rfl, N1_eq]; omega
  obtain ⟨t, ht⟩ : ∃ t : Fin cfg1.N, t.val = (i 0).val / 1024 * 391 + 390 := ⟨⟨_, hq⟩, rfl⟩
  refine ⟨t, (flush1_2 t).mpr (by omega), ?_⟩
  show i ∈ ((View.whole main_v9).slice (win1_2.rect t)).set
  rw [View.set_slice_whole, Rect.mem_set_unit]
  intro a
  match a with
  | ⟨0, _⟩ =>
    show win1_2.index t 0 * 1024 ≤ (i 0).val ∧ (i 0).val < win1_2.index t 0 * 1024 + 1024
    rw [show win1_2.index t = (cfg1.win 2).index t from rfl, index1_2]
    show t.val / 391 * 1024 ≤ (i 0).val ∧ (i 0).val < t.val / 391 * 1024 + 1024
    omega
  | ⟨1, _⟩ =>
    show win1_2.index t 1 * 128 ≤ (i 1).val ∧ (i 1).val < win1_2.index t 1 * 128 + 128
    rw [show win1_2.index t = (cfg1.win 2).index t from rfl, index1_2]
    show 0 * 128 ≤ (i 1).val ∧ (i 1).val < 0 * 128 + 128
    omega

end Cert.KernelIdeal.Hand

end
-- ==== Proof.HostReads.lean ====
import proofs.«411747_j57432302682772_1_alg».proof.Proof.Gen.KernelIdeal.Launch
import proofs.«411747_j57432302682772_1_alg».proof.Proof.Gen.KernelIdeal.Regions
import proofs.«411747_j57432302682772_1_alg».proof.Proof.KernelSpec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! # The host operations around the two regions, read at an index

Before the regions @main slices the edge list into its two rows, pads the source words with 0 and the target words
with 100352 to 1601536 entries, and pads the feature table with zero rows to 100352 rows (the change to the narrow
float format is the identity over the extended reals). After them it keeps the first 100000 rows of the result. -/

/-! ## The layout operations read at an entry -/

/-- The edge words' pad by 1536 entries at the end, read at an entry: the operand's entry inside, the padding value past it. -/
private theorem pad_words_apply (x : S1600000.Idx → BitVec 32) (v : S_.Idx → BitVec 32) (j : Fin 1601536) :
    pad S1601536 ![0] ![1536] ![0] x v pads_S1600000_S1601536_015360 h_S_ (ix1 j)
      = if h : j.val < 1600000 then x (ix1 (⟨j.val, h⟩ : Fin 1600000)) else v ix0 := by
  by_cases h : j.val < 1600000
  · rw [dif_pos h]
    refine pad_apply_of_inside _ _ _ x v _ _ _ _ fun a => ?_
    match a with
    | ⟨0, _⟩ => simp
  · rw [dif_neg h, ← eq_ix0 (Shape.Idx.first h_S_)]
    refine pad_apply_of_not_inside _ _ _ x v _ _ _ (0 : Fin 1) (fun hin => h ?_)
    have h3 := hin.2.2
    simpa using h3

/-- The table's pad by 352 rows at the end, read at an entry: the operand's entry inside, the padding value past it. -/
private theorem pad_rows_apply (x : S100000x128.Idx → EReal) (v : S_.Idx → EReal) (n : Fin 100352) (k : Fin 128) :
    pad S100352x128 ![0, 0] ![352, 0] ![0, 0] x v pads_S100000x128_S100352x128_03520_000 h_S_ (ix2 n k)
      = if h : n.val < 100000 then x (ix2 (⟨n.val, h⟩ : Fin 100000) k) else v ix0 := by
  by_cases h : n.val < 100000
  · rw [dif_pos h]
    refine pad_apply_of_inside _ _ _ x v _ _ _ _ fun a => ?_
    match a with
    | ⟨0, _⟩ => simp
    | ⟨1, _⟩ => simp
  · rw [dif_neg h, ← eq_ix0 (Shape.Idx.first h_S_)]
    refine pad_apply_of_not_inside _ _ _ x v _ _ _ (0 : Fin 2) (fun hin => h ?_)
    have h3 := hin.2.2
    simpa using h3

/-- The reshape of a one-row array to its row, read at an entry. -/
private theorem reshape_row_apply {α : Type} (y : S1x1600000.Idx → α) (e : Fin 1600000) :
    shapeCast S1600000 y shapeCasts_S1x1600000_S1600000 (ix1 e) = y (ix2 (0 : Fin 1) e) := by
  refine shapeCast_apply y _ _ _ ?_
  rw [Shape.rowMajor_val_two, Shape.rowMajor_val_one]
  simp

/-- Row 0 of the edge list, read at an entry. -/
private theorem slice_row0_apply {α : Type} (z : S2x1600000.Idx → α) (e : Fin 1600000) :
    extractStridedSlice S1x1600000 ![0, 0] z slices_S2x1600000_S1x1600000_0_0 (ix2 (0 : Fin 1) e) = z (ix2 (0 : Fin 2) e) := by
  refine extractStridedSlice_apply _ z _ _ _ fun a => ?_
  match a with
  | ⟨0, _⟩ => simp
  | ⟨1, _⟩ => simp

/-- Row 1 of the edge list, read at an entry. -/
private theorem slice_row1_apply {α : Type} (z : S2x1600000.Idx → α) (e : Fin 1600000) :
    extractStridedSlice S1x1600000 ![1, 0] z slices_S2x1600000_S1x1600000_1_0 (ix2 (0 : Fin 1) e) = z (ix2 (1 : Fin 2) e) := by
  refine extractStridedSlice_apply _ z _ _ _ fun a => ?_
  match a with
  | ⟨0, _⟩ => simp
  | ⟨1, _⟩ => simp

/-- The padding value of the table: the integer 0 as a real number. -/
private theorem sitofp_zero_apply :
    (sitofp (F := Ideal) .f32 (constantI S_ 32 0#32) : FVec Ideal S_ .f32) ix0 = (0 : EReal) := by
  rw [sitofp_apply, constantI_apply]
  show (((0#32 : BitVec 32).toInt : ℝ) : EReal) = 0
  simp

/-! ## The three padded arrays as functions of the arguments -/

/-- Row 0 of the edge list, as one row, padded with the word 0: the padded source words. -/
private theorem pad_src_eq (z : S2x1600000.Idx → BitVec 32) :
    pad S1601536 ![0] ![1536] ![0]
      (shapeCast S1600000 (extractStridedSlice S1x1600000 ![0, 0] z slices_S2x1600000_S1x1600000_0_0) shapeCasts_S1x1600000_S1600000)
      (constantI S_ 32 0#32) pads_S1600000_S1601536_015360 h_S_ = Cert.Agg.padSrc z := by
  funext j
  obtain ⟨e, rfl⟩ : ∃ e, j = ix1 e := ⟨j 0, eq_ix1 j⟩
  rw [pad_words_apply]
  unfold Cert.Agg.padSrc Cert.Agg.srcOf
  by_cases h : e.val < 1600000
  · rw [dif_pos h, dif_pos h, reshape_row_apply, slice_row0_apply]
  · rw [dif_neg h, dif_neg h]; rfl

/-- Row 1 of the edge list, as one row, padded with the word 100352: the padded target words. -/
private theorem pad_dst_eq (z : S2x1600000.Idx → BitVec 32) :
    pad S1601536 ![0] ![1536] ![0]
      (shapeCast S1600000 (extractStridedSlice S1x1600000 ![1, 0] z slices_S2x1600000_S1x1600000_1_0) shapeCasts_S1x1600000_S1600000)
      (constantI S_ 32 100352#32) pads_S1600000_S1601536_015360 h_S_ = Cert.Agg.padDst z := by
  funext j
  obtain ⟨e, rfl⟩ : ∃ e, j = ix1 e := ⟨j 0, eq_ix1 j⟩
  rw [pad_words_apply]
  unfold Cert.Agg.padDst Cert.Agg.dstOf
  by_cases h : e.val < 1600000
  · rw [dif_pos h, dif_pos h, reshape_row_apply, slice_row1_apply]
  · rw [dif_neg h, dif_neg h]; rfl

/-- The feature table padded with the real 0 and carried to the narrow format: the table padded with zero rows. -/
private theorem pad_tab_eq (x : S100000x128.Idx → EReal) :
    truncf (F := Ideal) .bf16 (pad S100352x128 ![0, 0] ![352, 0] ![0, 0] x
      (sitofp (F := Ideal) .f32 (constantI S_ 32 0#32)) pads_S100000x128_S100352x128_03520_000 h_S_) bitsLt_bf16_f32
      = Cert.Agg.padRows x := by
  funext j
  obtain ⟨n, k, rfl⟩ : ∃ n k, j = ix2 n k := ⟨j 0, j 1, eq_ix2 j⟩
  rw [truncf_apply, pad_rows_apply]
  unfold Cert.Agg.padRows
  by_cases h : n.val < 100000
  · rw [dif_pos h, dif_pos h]
  · rw [dif_neg h, dif_neg h]; exact sitofp_zero_apply

/-! ## The arrays the regions read, after the host operations before them -/

variable (m : (ℓ : Loc nD τ sig) → Buf (Elt Ideal) ℓ)

/-- After the first call of the padding function, its result is the pad of the reshaped row 0 of the edge list. -/
private theorem V2_v4_term (c : Dev nD) : (V2 (F := Ideal) m c main_v4 : S1601536.Idx → BitVec 32) =
    pad S1601536 ![0] ![1536] ![0]
      (shapeCast S1600000 (extractStridedSlice S1x1600000 ![0, 0] (m ((c : Thread nD τ).loc main_arg1) : S2x1600000.Idx → BitVec 32) slices_S2x1600000_S1x1600000_0_0)
        shapeCasts_S1x1600000_S1600000)
      (constantI S_ 32 0#32) pads_S1600000_S1601536_015360 h_S_ := by
  dsimp only [V2]
  show StableHlo.after hostOps0_1 _ (Proc.devRef .tc main_v4) = _
  after_results
  rfl

/-- After the second call of the padding function, its result is the pad of the reshaped row 1 of the edge list. -/
private theorem V4_v5_term (c : Dev nD) : (V4 (F := Ideal) m c main_v5 : S1601536.Idx → BitVec 32) =
    pad S1601536 ![0] ![1536] ![0]
      (shapeCast S1600000 (extractStridedSlice S1x1600000 ![1, 0] (m ((c : Thread nD τ).loc main_arg1) : S2x1600000.Idx → BitVec 32) slices_S2x1600000_S1x1600000_1_0)
        shapeCasts_S1x1600000_S1600000)
      (constantI S_ 32 100352#32) pads_S1600000_S1601536_015360 h_S_ := by
  dsimp only [V4]
  show StableHlo.after hostOps0_3 _ (Proc.devRef .tc main_v5) = _
  after_results
  rfl

/-- After the change of format, the table the gather region reads is the pad of the feature table. -/
private theorem V7_v7_term (c : Dev nD) : (V7 (F := Ideal) m c main_v7 : S100352x128.Idx → EReal) =
    truncf (F := Ideal) .bf16 (pad S100352x128 ![0, 0] ![352, 0] ![0, 0]
      (m ((c : Thread nD τ).loc main_arg0) : S100000x128.Idx → EReal)
      (sitofp (F := Ideal) .f32 (constantI S_ 32 0#32)) pads_S100000x128_S100352x128_03520_000 h_S_) bitsLt_bf16_f32 := by
  dsimp only [V7]
  show StableHlo.after hostOps0_6 _ (Proc.devRef .tc main_v7) = _
  after_results
  rfl

/-- The gather region's source words: the edge list's row 0, padded with 0. -/
theorem V7_src (c : Dev nD) : V7 (F := Ideal) m c main_v4 = Cert.Agg.padSrc (m ((c : Thread nD τ).loc main_arg1)) := by
  have e : V7 (F := Ideal) m c main_v4 = V2 (F := Ideal) m c main_v4 :=
    (V7_of m c main_v4 (by decide)).trans <| (V6_of m c main_v4 (by decide)).trans <| (V5_of m c main_v4 (by decide)).trans <|
      (V4_of m c main_v4 (by decide)).trans (V3_of m c main_v4 (by decide))
  exact e.trans ((V2_v4_term m c).trans (pad_src_eq _))

/-- The scatter region's target words: the edge list's row 1, padded with 100352. -/
theorem V7_dst (c : Dev nD) : V7 (F := Ideal) m c main_v5 = Cert.Agg.padDst (m ((c : Thread nD τ).loc main_arg1)) := by
  have e : V7 (F := Ideal) m c main_v5 = V4 (F := Ideal) m c main_v5 :=
    (V7_of m c main_v5 (by decide)).trans <| (V6_of m c main_v5 (by decide)).trans (V5_of m c main_v5 (by decide))
  exact e.trans ((V4_v5_term m c).trans (pad_dst_eq _))

/-- The gather region's table: the feature table padded with zero rows. -/
theorem V7_tab (c : Dev nD) : V7 (F := Ideal) m c main_v7 = Cert.Agg.padRows (m ((c : Thread nD τ).loc main_arg0)) :=
  (V7_v7_term m c).trans (pad_tab_eq _)

/-- The closing slice keeps the first 100000 rows. -/
theorem slice_rows (y : FVec Ideal S100352x128 .f32) (n : Fin 100000) (k : Fin 128) :
    extractStridedSlice S100000x128 ![0, 0] y slices_S100352x128_S100000x128_0_0 (ix2 n k) = y (ix2 (⟨n.val, by omega⟩ : Fin 100352) k) := by
  refine extractStridedSlice_apply _ y _ _ _ fun a => ?_
  match a with
  | ⟨0, _⟩ => simp
  | ⟨1, _⟩ => simp

end Cert.KernelIdeal.Hand

end
-- ==== Proof.AggregateRows.lean ====
/-
  The two padded stages compose to the aggregate: padded edges land nowhere (their target word 100352 is no node),
  a padded table row is zero, and a source word that names no padded row gives zero either way.
-/
import proofs.«411747_j57432302682772_1_alg».proof.Proof.KernelSpec

noncomputable section

namespace Cert.Agg

open Idealize.ShloMosaic Idealize.ShloMosaic.ValueIdx
open scoped BigOperators

/-! ## A sum whose tail vanishes -/

/-- A sum over the first `c` naturals whose terms vanish from `a` on is the sum over the first `a`. -/
theorem sum_fin_castLE {M : Type*} [AddCommMonoid M] {a c : ℕ} (hac : a ≤ c) (f : Fin c → M)
    (h : ∀ i : Fin c, a ≤ i.val → f i = 0) : ∑ i, f i = ∑ i : Fin a, f (Fin.castLE hac i) := by
  obtain ⟨b, rfl⟩ := Nat.exists_eq_add_of_le hac
  have htail : ∑ i : Fin b, f (Fin.natAdd a i) = 0 :=
    Finset.sum_eq_zero (fun i _ => h _ (by rw [Fin.coe_natAdd]; exact Nat.le_add_right a i.val))
  rw [Fin.sum_univ_add, htail, add_zero]
  rfl

/-! ## The padded words -/

/-- The 1600000 edges sit at the head of the 1601536 padded ones. -/
theorem edges_le : 1600000 ≤ 1601536 := by norm_num

/-- On an edge the padded source word is the edge's source word. -/
theorem padSrc_head (ei : IVec SE 32) (e : Fin 1600000) :
    padSrc ei (ix1 (Fin.castLE edges_le e)) = srcOf ei e := by
  unfold padSrc
  exact dif_pos e.isLt

/-- On an edge the padded target word is the edge's target word. -/
theorem padDst_head (ei : IVec SE 32) (e : Fin 1600000) :
    padDst ei (ix1 (Fin.castLE edges_le e)) = dstOf ei e := by
  unfold padDst
  exact dif_pos e.isLt

/-- Past the edges the padded target word is 100352. -/
theorem padDst_tail (ei : IVec SE 32) (e : Fin 1601536) (h : 1600000 ≤ e.val) :
    padDst ei (ix1 e) = 100352#32 := by
  unfold padDst
  exact dif_neg (by show ¬ e.val < 1600000; omega)

/-- The word 100352 is no node's number: read unsigned it is 100352, and a node's number is below 100000. -/
theorem pad_word_ne_node (n : Fin 100000) : (100352#32 : BitVec 32) ≠ BitVec.ofNat 32 n.val := by
  intro h
  have h2 := congrArg BitVec.toNat h
  rw [BitVec.toNat_ofNat, BitVec.toNat_ofNat] at h2
  have := n.isLt
  omega

/-! ## The gathered entry -/

/-- The padded table read at the row a word names, zero past the padded rows, is `rowAt`: below 100000 both are the
    table's entry, from 100000 to 100351 the padded row is zero, and from 100352 on both are zero. -/
theorem padRows_at (x : SX.Idx → EReal) (s : BitVec 32) (k : Fin 128) :
    (if h : s.toNat < 100352 then padRows x (ix2 (⟨s.toNat, h⟩ : Fin 100352) k) else 0) = rowAt x s k := by
  unfold rowAt padRows
  by_cases h1 : s.toNat < 100000
  · have h2 : s.toNat < 100352 := by omega
    rw [dif_pos h2, dif_pos h1]
  · rw [dif_neg h1]
    by_cases h2 : s.toNat < 100352
    · rw [dif_pos h2]
      exact dif_neg h1
    · rw [dif_neg h2]

/-- On an edge, the gathered entry is the entry of the row the edge's source word names. -/
theorem gatherRows_head (x : SX.Idx → EReal) (ei : IVec SE 32) (e : Fin 1600000) (k : Fin 128) :
    gatherRows (padSrc ei) (padRows x) (ix2 (Fin.castLE edges_le e) k) = rowAt x (srcOf ei e) k := by
  unfold gatherRows
  show (if h : (padSrc ei (ix1 (Fin.castLE edges_le e))).toNat < 100352
      then padRows x (ix2 (⟨(padSrc ei (ix1 (Fin.castLE edges_le e))).toNat, h⟩ : Fin 100352) k) else 0) = _
  rw [padSrc_head]
  exact padRows_at x _ k

/-! ## The composition -/

/-- Rows scattered out of rows gathered, over the padded arrays, restricted to the first 100000 rows, is `aggregate`. -/
theorem aggregate_of_rows (x : SX.Idx → EReal) (ei : IVec SE 32) (n : Fin 100000) (k : Fin 128) :
    scatterRows (padDst ei) (gatherRows (padSrc ei) (padRows x)) (ix2 (⟨n.val, by omega⟩ : Fin 100352) k)
      = aggregate x ei (ix2 n k) := by
  unfold scatterRows aggregate
  show (∑ e : Fin 1601536, if padDst ei (ix1 e) = BitVec.ofNat 32 n.val
        then gatherRows (padSrc ei) (padRows x) (ix2 e k) else 0)
      = ∑ e : Fin 1600000, if dstOf ei e = BitVec.ofNat 32 n.val then rowAt x (srcOf ei e) k else 0
  rw [sum_fin_castLE edges_le _ (fun e he => if_neg (by rw [padDst_tail ei e he]; exact pad_word_ne_node n))]
  refine Finset.sum_congr rfl (fun e _ => ?_)
  rw [padDst_head, gatherRows_head]

end Cert.Agg

end
-- ==== Proof.KernelValue.lean ====
import proofs.«411747_j57432302682772_1_alg».proof.Proof.Gen.KernelIdeal.Launch
import proofs.«411747_j57432302682772_1_alg».proof.Proof.Gen.KernelIdeal.Regions
import proofs.«411747_j57432302682772_1_alg».proof.Proof.KernelRun
import proofs.«411747_j57432302682772_1_alg».proof.Proof.GatherValue
import proofs.«411747_j57432302682772_1_alg».proof.Proof.ScatterValue
import proofs.«411747_j57432302682772_1_alg».proof.Proof.HostReads
import proofs.«411747_j57432302682772_1_alg».proof.Proof.KernelSpec
import proofs.«411747_j57432302682772_1_alg».proof.Proof.AggregateRows
import Idealize.ShloMosaic.PureOps.Ideal
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! # The kernel's result is the aggregate

The result buffer ends at the first 100000 rows of what the scatter region left; that is the rows scattered, by the
padded target words, out of what the gather region left; and that is the padded table's rows gathered by the padded
source words. Over the padded arrays the two stages compose to the aggregate of the inputs themselves. -/

/-- The scatter region's target words and gathered rows, as it finds them. -/
theorem E8_dst (c : Dev nD) : E8 m c main_v5 = Cert.Agg.padDst (m ((c : Thread nD τ).loc main_arg1)) :=
  (V8_of m (outs8 m) c main_v5 (by decide)).trans (V7_dst m c)
theorem E8_rows (c : Dev nD) :
    E8 m c main_v8 = Cert.Agg.gatherRows (Cert.Agg.padSrc (m ((c : Thread nD τ).loc main_arg1))) (Cert.Agg.padRows (m ((c : Thread nD τ).loc main_arg0))) := by
  have h : E8 m c main_v8 = (dat0 (F := Ideal) (E7 m) c).arrAt 2 cfg0.N := V8_main_v8 m c
  rw [h, gather_value (E7 m) c]
  show Cert.Agg.gatherRows (V7 m c main_v4) (V7 m c main_v7) = _
  rw [V7_src m c, V7_tab m c]

/-- What the scatter region leaves in its output array. -/
theorem V9_rows (c : Dev nD) :
    V9 m (outs m) c main_v9 = Cert.Agg.scatterRows (Cert.Agg.padDst (m ((c : Thread nD τ).loc main_arg1)))
      (Cert.Agg.gatherRows (Cert.Agg.padSrc (m ((c : Thread nD τ).loc main_arg1))) (Cert.Agg.padRows (m ((c : Thread nD τ).loc main_arg0)))) := by
  rw [V9_main_v9 m c, scatter_value (E8 m) c, E8_dst m c, E8_rows m c]

/-- The result buffer after the closing slice. -/
theorem V10_result (c : Dev nD) :
    V10 m (outs m) c main_v10
      = extractStridedSlice S100000x128 ![0, 0] (V9 m (outs m) c main_v9) slices_S100352x128_S100000x128_0_0 := by
  show StableHlo.after hostOps2 (V9 m (outs m) c) (Proc.devRef .tc main_v10) = _
  after_results

/-- THE KERNEL'S VALUE: the result buffer ends at the aggregate of the two inputs. -/
theorem kernel_value (c : Dev nD) :
    V10 m (outs m) c main_v10 = Cert.Agg.aggregate (m ((c : Thread nD τ).loc main_arg0)) (m ((c : Thread nD τ).loc main_arg1)) := by
  rw [V10_result m c, V9_rows m c]
  funext i
  obtain ⟨n, k, rfl⟩ : ∃ (n : Fin 100000) (k : Fin 128), i = ix2 n k := ⟨i 0, i 1, eq_ix2 i⟩
  rw [slice_rows]
  exact Cert.Agg.aggregate_of_rows _ _ n k

end Cert.KernelIdeal.Hand

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.RefSide.lean ====
/-
  The reference program, run and read.

  The reference is message passing written with array indexing: it splits the edge list into its row of source
  words and its row of target words, TAKES the feature rows the source words name, and ADDS each taken row into a
  zero table at the row its target word names.

  * `refOut x ei` is the term those operations compose to, as one function of the feature table `x` and the edge
    list `ei`; `run`: every execution of the reference ends with its result buffer at `refOut` of the two
    arguments, and with the arguments as they were.
  * `refOut_eq_aggregate`: when every source word names a row, `refOut x ei` is the sum aggregation
    `Cert.Agg.aggregate x ei`, entry by entry.

  How the take reads. A negative source word `s` is first replaced by `s + 100000` (indexing from the end); the
  result is tested against `0 ≤ · ≤ 99999`, the row at the word clamped into that range is gathered, and a row whose
  test failed is replaced by a fill constant. For a word with `0 ≤ s < 100000` the replacement keeps `s`, the test
  holds, the clamp keeps `s`, and the gathered row is row `s` of the table: the fill constant is never read.

  How the accumulation reads. The scatter adds update row `e` into the row its target word, read as a signed
  integer and not clamped, names, and drops it when that is no row. At node `n` that is zero plus the sum, over
  the edges whose target word reads `n`, of the taken rows; and for `n < 100000` a 32-bit word reads `n` as a
  signed integer exactly when it is the word `n`.
-/
import proofs.«411747_j57432302682772_1_alg».proof.Proof.Gen.ReferenceIdeal
import proofs.«411747_j57432302682772_1_alg».proof.Proof.Aggregate
import proofs.«411747_j57432302682772_1_alg».proof.Proof.LibRowGatherScatter
import Idealize.ShloMosaic.Lib.StableHlo.Run
import Idealize.ShloMosaic.Lib.Pipeline.Value
import Idealize.ShloMosaic.Lib.ValueIdx
import Idealize.ShloMosaic.Lib.Affine
import Idealize.ShloMosaic.PureOps.Reduce
import Idealize.ShloMosaic.PureOps.Ideal.Laws

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## The composed term -/

/-- The edge list's row `r` as a vector of 1600000 words: the slice of that row, its unit axis dropped. -/
def rowWords (off : Fin 2 → Nat) (h : S2x1600000.Slices off S1x1600000) (ei : IVec S2x1600000 32) : IVec S1600000 32 :=
  shapeCast S1600000 (extractStridedSlice S1x1600000 off ei h) shapeCasts_S1x1600000_S1600000

/-- The source words. -/
def srcWords (ei : IVec S2x1600000 32) : IVec S1600000 32 := rowWords ![0, 0] slices_S2x1600000_S1x1600000_0_0 ei
/-- The target words. -/
def dstWords (ei : IVec S2x1600000 32) : IVec S1600000 32 := rowWords ![1, 0] slices_S2x1600000_S1x1600000_1_0 ei

/-- Indexing from the end: a negative word `s` becomes `s + 100000`, any other is kept. -/
def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- A vector of words as a column of one-word index vectors. -/
def col (s : IVec S1600000 32) : IVec S1600000x1 32 := broadcastInDim S1600000x1 ![0] bcast_S1600000_S1600000x1_0 s

/-- Per edge, whether its index column names a row: `0 ≤ · ≤ 99999` on its one word, all words of the index vector
    taken together. -/
def named (c : IVec S1600000x1 32) : IVec S1600000 1 :=
  Host.reduce IntOp.andi
    (andi (cmpi .sge c (broadcastInDim S1600000x1 ![] bcast_S_S1600000x1 (constantI S_ 32 0#32)))
      (cmpi .sle c (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows the words `s` take out of the table `x`: the gathered row where the word names one, the fill constant
    elsewhere. -/
def taken (x : FVec Ideal S100000x128 .f32) (s : IVec S1600000 32) : FVec Ideal S1600000x128 .f32 :=
  select (broadcastInDim S1600000x128 ![0] bcast_S1600000_S1600000x128_0 (named (col (wrapped s))))
    (Host.gather gather_S100000x128_S1600000x1_S1600000x128_1_0_n_n_0_1_1128 x (col (wrapped s)))
    (broadcastInDim S1600000x128 ![] bcast_S_S1600000x128 (constant (F := Ideal) S_ .f32 0x7FC00000#32))

/-- The reference's result as one function of its two argument arrays: the composed term of @main's operations. -/
def refOut (x : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (col (dstWords ei)) (taken x (srcWords ei))

/-! ## The run -/

variable {F : FTy → Type} [FloatOps F]

/-- @main's operations in order, each call's operations in its place over the call's buffers: the two rows of the
    edge list (4), the take (23, the selection of the wrapped word among them), the zero table, the target column
    and the accumulation (4). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0),
    TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select,
    nullary main_cst (constant S_ .f32 0x00000000#32),
    unary main_cst main_v5 (broadcastInDim S100000x128 ![] bcast_S_S100000x128 : (⟨S_, .f32⟩ : BufTy).Contents (Elt F) → (⟨S100000x128, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

-- thirty-one binds re-associated: the rewrite under the chain recurses once per statement
set_option maxRecDepth 1024 in
/-- @main is that straight line: the two functions' bodies unfolded at their calls and the call's record at its
    fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    nullary_bufs_sub .., unary_bufs_sub .., unary_bufs_sub .., ternary_bufs_sub ..⟩

/-- Every execution of the reference terminates with each of its buffers at the operations' fold over the launch
    contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the buffers hold at the end -/

/-- Moving a value to an equal type and back gives the value. -/
theorem cast_cast_cancel {α β : Type} (h : α = β) (h' : β = α) (v : α) : cast h' (cast h v) = v := by
  subst h; rfl

attribute [local irreducible] Host.reduce Host.gather Host.scatterAdd in
/-- The fold at the result buffer is the composed term: each operation's result is read at the buffer it writes and
    passed over at every other; a consumer's change of type undoes its producer's; the few left at the ends are the
    identity at these literal buffers. The reduction, the gather and the accumulation stay folded meanwhile: their
    bodies run over the operand's elements, and the equation never looks inside them. -/
theorem out_eq (V : Valuation τ sig (Elt Ideal)) :
    after (ops (F := Ideal)) V (main_v7 : DevRef τ sig) = refOut (V (main_arg0 : DevRef τ sig)) (V (main_arg1 : DevRef τ sig)) := by
  after_results_simp
  simp only [cast_cast_cancel]
  rfl

/-- No operation writes the first argument. -/
theorem arg0_eq (V : Valuation τ sig (Elt Ideal)) :
    after (ops (F := Ideal)) V (main_arg0 : DevRef τ sig) = V (main_arg0 : DevRef τ sig) := by
  after_results_simp

/-- No operation writes the second argument. -/
theorem arg1_eq (V : Valuation τ sig (Elt Ideal)) :
    after (ops (F := Ideal)) V (main_arg1 : DevRef τ sig) = V (main_arg1 : DevRef τ sig) := by
  after_results_simp

/-! ## The run -/

/-- THE REFERENCE'S RUN: from any memory with zero counters every execution terminates, the result buffer holds
    `refOut` of the two arguments' launch contents, and the arguments are unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v7) = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c main_v7).trans (out_eq _), (h c main_arg0).trans (arg0_eq _), (h c main_arg1).trans (arg1_eq _)⟩)
    (run_all (F := Ideal) m g)

/-! ## The stages read at an index -/

/-- Entry `e` of the source words is the edge list at `(0, e)`. -/
theorem srcWords_apply (ei : IVec S2x1600000 32) (e : Fin 1600000) : srcWords ei (ix1 e) = Cert.Agg.srcOf ei e := by
  unfold srcWords rowWords Cert.Agg.srcOf
  refine (shapeCast_dropUnit_apply ![1600000] _ _ (ix1 e)).trans ?_
  refine extractStridedSlice_apply _ ei _ _ (ix2 (0 : Fin 2) e) fun a => ?_
  match a with
  | ⟨0, _⟩ => rfl
  | ⟨1, _⟩ => show e.val = 0 + e.val; omega

/-- Entry `e` of the target words is the edge list at `(1, e)`. -/
theorem dstWords_apply (ei : IVec S2x1600000 32) (e : Fin 1600000) : dstWords ei (ix1 e) = Cert.Agg.dstOf ei e := by
  unfold dstWords rowWords Cert.Agg.dstOf
  refine (shapeCast_dropUnit_apply ![1600000] _ _ (ix1 e)).trans ?_
  refine extractStridedSlice_apply _ ei _ _ (ix2 (1 : Fin 2) e) fun a => ?_
  match a with
  | ⟨0, _⟩ => rfl
  | ⟨1, _⟩ => show e.val = 0 + e.val; omega

/-- Indexing from the end keeps a word that is not negative. -/
theorem wrapped_of_nonneg (s : IVec S1600000 32) (i : S1600000.Idx) (h : 0 ≤ (s i).toInt) : wrapped s i = s i := by
  have hc : IntOp.cmpi .slt (s i) 0#32 = 0#1 := by
    refine eq_zero_of_ne_one fun h1 => ?_
    have h2 := IntOp.cmpi_slt.1 h1
    rw [show (0#32 : BitVec 32).toInt = 0 from by decide] at h2
    omega
  show Scalar.select (IntOp.cmpi .slt (s i) 0#32) _ (s i) = s i
  rw [hc, select_zero]

/-- The column's one word on row `e` is word `e`. -/
theorem col_apply (s : IVec S1600000 32) (e : Fin 1600000) (z : Fin 1) : col s (ix2 e z) = s (ix1 e) := by
  unfold col
  refine broadcastInDim_apply _ _ s _ (ix1 e) fun a => ?_
  match a with
  | ⟨0, _⟩ => rfl

/-- A conjunction of one-bit words, started at one and meeting only ones, is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Where every index word lies in `0 … 99999`, every edge's index vector names a row. -/
theorem named_of_range (c : IVec S1600000x1 32)
    (h : ∀ i : S1600000x1.Idx, 0 ≤ (c i).toInt ∧ (c i).toInt ≤ 99999) (j : S1600000.Idx) : named c j = 1#1 := by
  unfold named
  rw [Host.reduce_eq_foldl]
  refine foldl_andi_one _ _ fun i _ => ?_
  show IntOp.andi (IntOp.cmpi .sge (c i) 0#32) (IntOp.cmpi .sle (c i) 99999#32) = 1#1
  refine IntOp.andi_eq_one.2 ⟨IntOp.cmpi_sge.2 ?_, IntOp.cmpi_sle.2 ?_⟩
  · rw [show (0#32 : BitVec 32).toInt = 0 from by decide]; exact (h i).1
  · rw [show (99999#32 : BitVec 32).toInt = 99999 from by decide]; exact (h i).2

/-- The reference's gather is the gather of rows. -/
theorem gatherDims_eq :
    gather_S100000x128_S1600000x1_S1600000x128_1_0_n_n_0_1_1128
      = Cert.Gcn.rowGatherDims 100000 1600000 128 gather_S100000x128_S1600000x1_S1600000x128_1_0_n_n_0_1_1128_wf := rfl

/-- The reference's scatter is the scatter of rows. -/
theorem scatterDims_eq :
    scatter_S100000x128_S1600000x1_S1600000x128_1_0_0_1
      = Cert.Gcn.rowScatterDims 100000 1600000 128 scatter_S100000x128_S1600000x1_S1600000x128_1_0_0_1_wf := rfl

/-- THE TAKE READ AT `(e, k)`, for source words that name rows: entry `k` of the row that edge `e`'s source word
    names. The word is kept by the indexing from the end, passes the range test, is kept by the clamp, and the fill
    constant is not read. -/
theorem taken_apply (x : FVec Ideal S100000x128 .f32) (ei : IVec S2x1600000 32)
    (hsrc : ∀ e : Fin 1600000, 0 ≤ (Cert.Agg.srcOf ei e).toInt ∧ (Cert.Agg.srcOf ei e).toInt < 100000)
    (e : Fin 1600000) (k : Fin 128) :
    taken x (srcWords ei) (ix2 e k) = Cert.Agg.rowAt x (Cert.Agg.srcOf ei e) k := by
  have hw : ∀ e' : Fin 1600000, wrapped (srcWords ei) (ix1 e') = Cert.Agg.srcOf ei e' := fun e' => by
    rw [wrapped_of_nonneg _ _ (by rw [srcWords_apply]; exact (hsrc e').1), srcWords_apply]
  have hcol : ∀ i : S1600000x1.Idx, col (wrapped (srcWords ei)) i = Cert.Agg.srcOf ei (i 0) := fun i =>
    (congrArg (col (wrapped (srcWords ei))) (eq_ix2 i)).trans ((col_apply _ (i 0) (i 1)).trans (hw (i 0)))
  have hn : named (col (wrapped (srcWords ei))) (ix1 e) = 1#1 :=
    named_of_range _ (fun i => by rw [hcol]; have := hsrc (i 0); exact ⟨this.1, by omega⟩) _
  have hb : broadcastInDim S1600000x128 ![0] bcast_S1600000_S1600000x128_0 (named (col (wrapped (srcWords ei)))) (ix2 e k)
      = named (col (wrapped (srcWords ei))) (ix1 e) :=
    broadcastInDim_apply _ _ _ _ (ix1 e) fun a => by
      match a with
      | ⟨0, _⟩ => rfl
  have hc0 : col (wrapped (srcWords ei)) (ix2 e (0 : Fin 1)) = Cert.Agg.srcOf ei e := hcol (ix2 e (0 : Fin 1))
  unfold taken
  rw [select_apply, hb, hn, select_one]
  refine (Cert.Gcn.gather_rows_apply (N := 100000) (E := 1600000) (C := 128) (by decide)
    gather_S100000x128_S1600000x1_S1600000x128_1_0_n_n_0_1_1128_wf x (col (wrapped (srcWords ei))) e k).trans ?_
  rw [Cert.Agg.rowAt_of_range x _ k (hsrc e).1 (hsrc e).2]
  refine congrArg x (congrArg (fun r : Fin 100000 => ix2 r k) (Fin.ext ?_))
  show min (col (wrapped (srcWords ei)) (ix2 e (0 : Fin 1))).toInt.toNat (100000 - 1) = (Cert.Agg.srcOf ei e).toInt.toNat
  rw [hc0]
  have := hsrc e
  omega

/-- For `n` below `100000` a 32-bit word reads `n` as a signed integer exactly when it is the word `n`. -/
theorem toInt_eq_iff (w : BitVec 32) (n : Nat) (hn : n < 100000) : w.toInt = (n : ℤ) ↔ w = BitVec.ofNat 32 n := by
  have hw := w.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    split <;> omega

/-! ## The value -/

/-- At the ideal values the accumulating scatter is the exact sum. -/
theorem scatterAdd_ideal {s si u : Shape} {w : Nat} {φ : FTy} (d : ScatterDims s si u) (a : FVec Ideal s φ)
    (idx : IVec si w) (upd : FVec Ideal u φ) : Host.scatterAdd (F := Ideal) d a idx upd = Ideal.hostScatterAdd d a idx upd := rfl

/-- THE REFERENCE IS THE SUM AGGREGATION, when every source word names a row: at node `n` and entry `k`, zero plus
    the sum over the edges whose target word reads `n` of entry `k` of the source's row. -/
theorem refOut_eq_aggregate (x : FVec Ideal Cert.ReferenceIdeal.S100000x128 .f32) (ei : IVec Cert.ReferenceIdeal.S2x1600000 32)
    (hsrc : ∀ e : Fin 1600000, 0 ≤ (Cert.Agg.srcOf ei e).toInt ∧ (Cert.Agg.srcOf ei e).toInt < 100000) :
    refOut x ei = Cert.Agg.aggregate x ei := by
  funext i
  obtain ⟨n, k, rfl⟩ : ∃ (n : Fin 100000) (k : Fin 128), i = ix2 n k := ⟨i 0, i 1, eq_ix2 i⟩
  unfold refOut Cert.Agg.aggregate
  rw [scatterAdd_ideal, scatterDims_eq, Cert.Gcn.scatterAdd_rows_apply, Finset.sum_filter]
  rw [show broadcastInDim S100000x128 ![] bcast_S_S100000x128 (constant (F := Ideal) S_ .f32 0x00000000#32) (ix2 n k)
      = Ideal.ofBits .f32 0x00000000#32 from rfl, Ideal.ofBits_zero_f32, zero_add]
  refine Finset.sum_congr rfl fun e _ => ?_
  show _ = if Cert.Agg.dstOf ei e = BitVec.ofNat 32 n.val then Cert.Agg.rowAt x (Cert.Agg.srcOf ei e) k else 0
  rw [col_apply, dstWords_apply, taken_apply x ei hsrc]
  by_cases hd : Cert.Agg.dstOf ei e = BitVec.ofNat 32 n.val
  · rw [if_pos hd, if_pos ((toInt_eq_iff _ _ n.isLt).2 hd)]
  · rw [if_neg hd, if_neg fun h => hd ((toInt_eq_iff _ _ n.isLt).1 h)]

end Cert.RefSide

end
-- ==== Proof.SrcRange.lean ====
/-
  The precondition, read back at one edge.

  The admitted inputs are those on which a printed predicate is true: every entry of the feature table is
  finite, and every source word `s` of the edge list (row 0), read as a signed 32-bit number, satisfies
  `0 ≤ s < 100000`. The second half is an "all" over the 1600000 positions of the conjunction of two signed
  comparisons against constants broadcast along the row. Here it is opened at a single edge `e`: the "all"
  gives the conjunction at position `e`, the row-0 slice reshaped to a vector reads the edge list at `(0, e)`,
  the broadcast constants read `0` and `100000`, and a signed comparison word equal to one is the
  inequality between the signed readings.
-/
import proofs.«411747_j57432302682772_1_alg».proof.Proof.Gen.Pre_finite_inputs
import proofs.«411747_j57432302682772_1_alg».proof.Proof.Aggregate
import Idealize.ShloMosaic.Lib.ReduceAll
import Idealize.ShloMosaic.Lib.ValueLayout
import Idealize.ShloMosaic.Lib.IdealHost

namespace Cert.SrcRange

open Idealize.ShloMosaic Idealize.ShloMosaic.ValueIdx
open Cert.Pre_finite_inputs

/-- The scalar shape has exactly one index. -/
private instance scalarIdxSubsingleton : Subsingleton S_.Idx := ⟨fun a b => funext fun d => d.elim0⟩

/-- Row 0 of the edge list, flattened to a vector, reads the edge list at `(0, e)`. -/
private theorem src_read (ei : IVec S2x1600000 32) (h1 : S2x1600000.Slices ![0, 0] S1x1600000)
    (h2 : S1x1600000.ShapeCasts S1600000) (e : Fin 1600000) :
    shapeCast S1600000 (extractStridedSlice S1x1600000 ![0, 0] ei h1) h2 (ix1 e) = ei (ix2 (0 : Fin 2) e) := by
  rw [shapeCast_1a_a_apply]
  exact slice2_axis0_apply 0 ei h1 (0 : Fin 1) e (0 : Fin 2) rfl

/-- The signed reading of the word `100000`. -/
private theorem toInt_100000 : (100000#32 : BitVec 32).toInt = 100000 := by decide

/-- The signed reading of the word `0`. -/
private theorem toInt_zero : (0#32 : BitVec 32).toInt = 0 := by decide

/-- On an admitted input every source word, read signed, names a row of the feature table. -/
theorem src_in_range {F : FTy → Type} [FloatOps F] (x : FVec F Cert.Pre_finite_inputs.S100000x128 .f32)
    (ei : IVec Cert.Pre_finite_inputs.S2x1600000 32)
    (h : Cert.Pre_finite_inputs.fn (F := F) x ei = fun _ => 1#1) :
    ∀ e : Fin 1600000, 0 ≤ (Cert.Agg.srcOf ei e).toInt ∧ (Cert.Agg.srcOf ei e).toInt < 100000 := by
  intro e
  have h0 := congrFun h ix0
  dsimp only [fn] at h0
  -- the outer conjunction: keep the half about the source words
  obtain ⟨-, hall⟩ := IntOp.andi_eq_one.1 h0
  -- the "all" at position `e`
  have hp := Host.reduce_andi_all _ _ _ _ _ hall (ix1 e)
  -- the two comparisons at position `e`
  obtain ⟨hge, hlt⟩ := IntOp.andi_eq_one.1 hp
  have hge' := IntOp.cmpi_sge.1 hge
  have hlt' := IntOp.cmpi_slt.1 hlt
  rw [src_read, broadcastInDim_scalar_apply, constantI_apply] at hge' hlt'
  rw [toInt_zero] at hge'
  rw [toInt_100000] at hlt'
  exact ⟨hge', hlt'⟩

end Cert.SrcRange
-- ==== Proof.lean ====
/-
  Message passing with sum aggregation: every node of a graph collects the feature rows of the sources of the edges
  that point at it,

      out (n, k) = ∑ over edges e with target n, of x (source e, k),

  for 100000 nodes, 128 features and 1600000 edges.

  THE KERNEL computes it in two passes over padded arrays, each a sum of products with a zero-one matrix. The first
  pass gathers: for a block of 4096 edges and each of the 98 blocks of 1024 nodes it multiplies the matrix "source word
  r is node k" with the block of the table and accumulates, so that a row ends at the table's row its source names.
  The second pass scatters: for a block of 1024 nodes and each of the 391 blocks of edges it multiplies the transpose of
  "target word r is node k" with the gathered block and accumulates, so that a row ends at the sum of the gathered rows
  that target it. Padded edges carry a target word that is no node, and padded table rows are zero.

  THE REFERENCE gathers the rows by the source words and adds them into a zero table at the target words.

  Over the extended reals the two agree as soon as every source word names a row (the precondition says so; outside
  it the reference wraps a negative word round and fills an out-of-range row with a constant, where the kernel's
  comparison finds no node and gives zero). The target words need nothing: a word that names no node contributes
  nowhere on both sides. The law that joins the two sides is that a finite sum of extended reals may be regrouped and
  reordered freely and that a product with zero is zero; no finiteness of the features is used.

  Frames: each kernel pass keeps its running table in a scratch buffer between grid points, zeroes it at the first
  point of a row of the grid and writes it out at the last; the invariant carries the table's contents point by point.
-/
import proofs.«411747_j57432302682772_1_alg».proof.Defs
import proofs.«411747_j57432302682772_1_alg».proof.Proof.Gen.Kernel
import proofs.«411747_j57432302682772_1_alg».proof.Proof.Gen.KernelIdeal
import proofs.«411747_j57432302682772_1_alg».proof.Proof.Gen.ReferenceIdeal
import proofs.«411747_j57432302682772_1_alg».proof.Proof.Gen.Pre_finite_inputs
import proofs.«411747_j57432302682772_1_alg».proof.Proof.BitsKernelRun
import proofs.«411747_j57432302682772_1_alg».proof.Proof.KernelRun
import proofs.«411747_j57432302682772_1_alg».proof.Proof.KernelValueRun
import proofs.«411747_j57432302682772_1_alg».proof.Proof.KernelValue
import proofs.«411747_j57432302682772_1_alg».proof.Proof.RefSide
import proofs.«411747_j57432302682772_1_alg».proof.Proof.SrcRange
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame_main (F := Bits) m ρ

/-- So does the kernel read over the extended reals. -/
theorem frame_kernelIdeal : Cert.frame_KernelIdeal := fun m ρ _ => Cert.KernelIdeal.Hand.frame_main (F := Ideal) m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.RefSide.run m ρ)

/-- From memories agreeing on the arguments both programs end at the aggregate of the arguments: the kernel always,
    the reference because the precondition puts every source word in range. -/
theorem algebraic : Cert.algebraic_KernelIdeal_ReferenceIdeal := by
  intro m ρ m' ρ' hpre hagree
  refine ⟨fun c => Cert.Agg.aggregate (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩) (Cert.RefSide.run m' ρ')
    rw [(hagree c).1, (hagree c).2]
    exact Cert.RefSide.refOut_eq_aggregate _ _ (Cert.SrcRange.src_in_range _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
